-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x9x1024 : Shape := ⟨3, ![8192, 9, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S_ : Shape := ⟨0, ![]⟩

class Facts : Prop where
  bcast_S_S8192x9x1024 : S_.BroadcastsInDim S8192x9x1024 (![] : Fin 0 → Fin S8192x9x1024.rank)
  reducesTo_S8192x9x1024_S_d0_1_2 : S8192x9x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S8192x9x1024 .f32) (main_arg1 : FVec F S1024x4096 .f32) (main_arg2 : FVec F S4096 .f32) (main_arg3 : FVec F S4096x1024 .f32) (main_arg4 : FVec F S1024 .f32) : IVec S_ 1 :=
  let main_v0 : FVec F S8192x9x1024 .f32 := Host.absf main_arg0
  let main_cst : FVec F S_ .f32 := constant S_ .f32 0x7F800000#32
  let main_v1 : FVec F S8192x9x1024 .f32 := broadcastInDim S8192x9x1024 ![] bcast_S_S8192x9x1024 main_cst
  let main_v2 : IVec S8192x9x1024 1 := cmpf .olt main_v0 main_v1
  let main_c : IVec S_ 1 := constantI S_ 1 1#1
  let main_v3 : IVec S_ 1 := (fun x v => Host.reduce IntOp.andi x v reducesTo_S8192x9x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_v13 main_v16
-- ==== Kernel.lean ====
abbrev S8192x9x1024 : Shape := ⟨3, ![8192, 9, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S4x9 : Shape := ⟨2, ![4, 9]⟩
abbrev S4x8192x1024 : Shape := ⟨3, ![4, 8192, 1024]⟩
abbrev S64x9x1024 : Shape := ⟨3, ![64, 9, 1024]⟩
abbrev S4x64x1024 : Shape := ⟨3, ![4, 64, 1024]⟩
abbrev S1x9 : Shape := ⟨2, ![1, 9]⟩
abbrev S9 : Shape := ⟨1, ![9]⟩
abbrev S1x9x1 : Shape := ⟨3, ![1, 9, 1]⟩
abbrev S64x1024 : Shape := ⟨2, ![64, 1024]⟩
abbrev S256x1024 : Shape := ⟨2, ![256, 1024]⟩
abbrev S256x4096 : Shape := ⟨2, ![256, 4096]⟩
abbrev S1x4096 : Shape := ⟨2, ![1, 4096]⟩
abbrev S1x1024 : Shape := ⟨2, ![1, 1024]⟩

abbrev nBuf : Space → Nat
  | .hbm => 9
  | .vmem => 9
  | .smem => 0
  | _ => 0

abbrev bufTy : (tb : Table) → Fin (tcTables nBuf tb) → BufTy
  | .hbm, ⟨0, _⟩ => ⟨S8192x9x1024, .f32⟩
  | .hbm, ⟨1, _⟩ => ⟨S1024x4096, .f32⟩
  | .hbm, ⟨2, _⟩ => ⟨S4096, .f32⟩
  | .hbm, ⟨3, _⟩ => ⟨S4096x1024, .f32⟩
  | .hbm, ⟨4, _⟩ => ⟨S1024, .f32⟩
  | .hbm, ⟨5, _⟩ => ⟨S4x9, .f32⟩
  | .hbm, ⟨6, _⟩ => ⟨S1024x4096, .bf16⟩
  | .hbm, ⟨7, _⟩ => ⟨S4096x1024, .bf16⟩
  | .hbm, ⟨8, _⟩ => ⟨S4x8192x1024, .f32⟩
  | .local _ .vmem, ⟨0, _⟩ => ⟨S64x9x1024, .f32⟩
  | .local _ .vmem, ⟨1, _⟩ => ⟨S64x9x1024, .f32⟩
  | .local _ .vmem, ⟨2, _⟩ => ⟨S4x9, .f32⟩
  | .local _ .vmem, ⟨3, _⟩ => ⟨S1024x4096, .bf16⟩
  | .local _ .vmem, ⟨4, _⟩ => ⟨S4096, .f32⟩
  | .local _ .vmem, ⟨5, _⟩ => ⟨S4096x1024, .bf16⟩
  | .local _ .vmem, ⟨6, _⟩ => ⟨S1024, .f32⟩
  | .local _ .vmem, ⟨7, _⟩ => ⟨S4x64x1024, .f32⟩
  | .local _ .vmem, ⟨8, _⟩ => ⟨S4x64x1024, .f32⟩
  | _, _ => ⟨S8192x9x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S64x9x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x9 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  inb_S64x9x1024_S64x9x1024_0_0_0 : ∀ a, (![0, 0, 0] : Fin 3 → Nat) a + S64x9x1024.size a ≤ S64x9x1024.size a
  h_S64x9x1024 : 0 < S64x9x1024.numel
  inb_S4x9_S4x9_0_0 : ∀ a, (![0, 0] : Fin 2 → Nat) a + S4x9.size a ≤ S4x9.size a
  h_S4x9 : 0 < S4x9.numel
  slices_S4x9_o0_0_S1x9 : S4x9.Slices ![0, 0] S1x9
  shapeCasts_S1x9_S9 : S1x9.ShapeCasts S9
  shapeCasts_S9_S1x9x1 : S9.ShapeCasts S1x9x1
  broadcasts_S1x9x1_S64x9x1024 : S1x9x1.Broadcasts S64x9x1024
  reduces_S64x9x1024_S64x1024 : S64x9x1024.Reduces [1] S64x1024
  slices_S4x9_o1_0_S1x9 : S4x9.Slices ![1, 0] S1x9
  slices_S4x9_o2_0_S1x9 : S4x9.Slices ![2, 0] S1x9
  slices_S4x9_o3_0_S1x9 : S4x9.Slices ![3, 0] S1x9
  concatenates_S64x1024_S64x1024_S64x1024_S64x1024_S256x1024_d0 : Shape.Concatenates [S64x1024, S64x1024, S64x1024, S64x1024] S256x1024 0
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S256x4096 : S1x4096.Broadcasts S256x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  shapeCasts_S256x1024_S4x64x1024 : S256x1024.ShapeCasts S4x64x1024
  inb_S4x64x1024_S4x64x1024_0_0_0 : ∀ a, (![0, 0, 0] : Fin 3 → Nat) a + S4x64x1024.size a ≤ S4x64x1024.size a
  h_S4x64x1024 : 0 < S4x64x1024.numel
  dot_S256x1024_S1024x4096_S256x4096_1_0_0_1_n_n_wf : DotDims.WF S256x1024 S1024x4096 S256x4096 [1] [0] [0] [1] [] []
  dot_S256x4096_S4096x1024_S256x1024_1_0_0_1_n_n_wf : DotDims.WF S256x4096 S4096x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x9x1024.size a ≤ S8192x9x1024.size a
  hwx0_0 : ∀ i : grid0.Coords, EltTy.bits .f32 = 32 ∨ (Rect.block (s := S8192x9x1024) S64x9x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x9.size a ≤ S4x9.size a
  hwx0_1 : ∀ i : grid0.Coords, EltTy.bits .f32 = 32 ∨ (Rect.block (s := S4x9) S4x9.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x4096.size a ≤ S1024x4096.size a
  hwx0_2 : ∀ i : grid0.Coords, EltTy.bits .bf16 = 32 ∨ (Rect.block (s := S1024x4096) S1024x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096.size a ≤ S4096.size a
  hwx0_3 : ∀ i : grid0.Coords, EltTy.bits .f32 = 32 ∨ (Rect.block (s := S4096) S4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x1024.size a ≤ S4096x1024.size a
  hwx0_4 : ∀ i : grid0.Coords, EltTy.bits .bf16 = 32 ∨ (Rect.block (s := S4096x1024) S4096x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4x64x1024.size a ≤ S4x8192x1024.size a
  hwx0_6 : ∀ i : grid0.Coords, EltTy.bits .f32 = 32 ∨ (Rect.block (s := S4x8192x1024) S4x64x1024.size (cc0_transform_6 i) (hinb0_6 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf

abbrev win0_0 : Pipeline.Window sig grid0 :=
  Pipeline.Window.ofSpec (Memref.whole main_arg0) S64x9x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_cst) S4x9.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S4096x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S4x64x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x9x1024 : Shape := ⟨3, ![8192, 9, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S8192x1x1024 : Shape := ⟨3, ![8192, 1, 1024]⟩
abbrev S8192x1024 : Shape := ⟨2, ![8192, 1024]⟩
abbrev S_ : Shape := ⟨0, ![]⟩
abbrev S8192x4096 : Shape := ⟨2, ![8192, 4096]⟩
abbrev S1x4096 : Shape := ⟨2, ![1, 4096]⟩
abbrev S1x1024 : Shape := ⟨2, ![1, 1024]⟩
abbrev S1x8192x1024 : Shape := ⟨3, ![1, 8192, 1024]⟩
abbrev S4x8192x1024 : Shape := ⟨3, ![4, 8192, 1024]⟩

abbrev nBuf : Space → Nat
  | .hbm => 128
  | .vmem => 0
  | .smem => 0
  | _ => 0

abbrev bufTy : (tb : Table) → Fin (tcTables nBuf tb) → BufTy
  | .hbm, ⟨0, _⟩ => ⟨S8192x9x1024, .f32⟩
  | .hbm, ⟨1, _⟩ => ⟨S1024x4096, .f32⟩
  | .hbm, ⟨2, _⟩ => ⟨S4096, .f32⟩
  | .hbm, ⟨3, _⟩ => ⟨S4096x1024, .f32⟩
  | .hbm, ⟨4, _⟩ => ⟨S1024, .f32⟩
  | .hbm, ⟨5, _⟩ => ⟨S8192x1x1024, .f32⟩
  | .hbm, ⟨6, _⟩ => ⟨S8192x1024, .f32⟩
  | .hbm, ⟨7, _⟩ => ⟨S8192x1x1024, .f32⟩
  | .hbm, ⟨8, _⟩ => ⟨S8192x1024, .f32⟩
  | .hbm, ⟨9, _⟩ => ⟨S8192x1x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1x1024, .f32⟩
  | .hbm, ⟨14, _⟩ => ⟨S8192x1024, .f32⟩
  | .hbm, ⟨15, _⟩ => ⟨S8192x1x1024, .f32⟩
  | .hbm, ⟨16, _⟩ => ⟨S8192x1024, .f32⟩
  | .hbm, ⟨17, _⟩ => ⟨S8192x1x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1x1024, .f32⟩
  | .hbm, ⟨22, _⟩ => ⟨S8192x1024, .f32⟩
  | .hbm, ⟨23, _⟩ => ⟨S8192x1x1024, .f32⟩
  | .hbm, ⟨24, _⟩ => ⟨S8192x1024, .f32⟩
  | .hbm, ⟨25, _⟩ => ⟨S8192x1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S8192x1x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x4096, .f32⟩
  | .hbm, ⟨42, _⟩ => ⟨S1x4096, .f32⟩
  | .hbm, ⟨43, _⟩ => ⟨S8192x4096, .f32⟩
  | .hbm, ⟨44, _⟩ => ⟨S8192x4096, .f32⟩
  | .hbm, ⟨45, _⟩ => ⟨S_, .f32⟩
  | .hbm, ⟨46, _⟩ => ⟨S8192x4096, .f32⟩
  | .hbm, ⟨47, _⟩ => ⟨S8192x4096, .f32⟩
  | .hbm, ⟨48, _⟩ => ⟨S8192x1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S8192x1x1024, .f32⟩
  | .hbm, ⟨60, _⟩ => ⟨S8192x1024, .f32⟩
  | .hbm, ⟨61, _⟩ => ⟨S_, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x4096, .f32⟩
  | .hbm, ⟨66, _⟩ => ⟨S1x4096, .f32⟩
  | .hbm, ⟨67, _⟩ => ⟨S8192x4096, .f32⟩
  | .hbm, ⟨68, _⟩ => ⟨S8192x4096, .f32⟩
  | .hbm, ⟨69, _⟩ => ⟨S_, .f32⟩
  | .hbm, ⟨70, _⟩ => ⟨S8192x4096, .f32⟩
  | .hbm, ⟨71, _⟩ => ⟨S8192x4096, .f32⟩
  | .hbm, ⟨72, _⟩ => ⟨S8192x1024, .f32⟩
  | .hbm, ⟨73, _⟩ => ⟨S1x1024, .f32⟩
  | .hbm, ⟨74, _⟩ => ⟨S8192x1024, .f32⟩
  | .hbm, ⟨75, _⟩ => ⟨S8192x1024, .f32⟩
  | .hbm, ⟨76, _⟩ => ⟨S_, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S8192x1024, .f32⟩
  | .hbm, ⟨82, _⟩ => ⟨S8192x1024, .f32⟩
  | .hbm, ⟨83, _⟩ => ⟨S8192x1x1024, .f32⟩
  | .hbm, ⟨84, _⟩ => ⟨S8192x1024, .f32⟩
  | .hbm, ⟨85, _⟩ => ⟨S_, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S8192x4096, .f32⟩
  | .hbm, ⟨90, _⟩ => ⟨S1x4096, .f32⟩
  | .hbm, ⟨91, _⟩ => ⟨S8192x4096, .f32⟩
  | .hbm, ⟨92, _⟩ => ⟨S8192x4096, .f32⟩
  | .hbm, ⟨93, _⟩ => ⟨S_, .f32⟩
  | .hbm, ⟨94, _⟩ => ⟨S8192x4096, .f32⟩
  | .hbm, ⟨95, _⟩ => ⟨S8192x4096, .f32⟩
  | .hbm, ⟨96, _⟩ => ⟨S8192x1024, .f32⟩
  | .hbm, ⟨97, _⟩ => ⟨S1x1024, .f32⟩
  | .hbm, ⟨98, _⟩ => ⟨S8192x1024, .f32⟩
  | .hbm, ⟨99, _⟩ => ⟨S8192x1024, .f32⟩
  | .hbm, ⟨100, _⟩ => ⟨S_, .f32⟩
  | .hbm, ⟨101, _⟩ => ⟨S8192x1024, .f32⟩
  | .hbm, ⟨102, _⟩ => ⟨S8192x1024, .f32⟩
  | .hbm, ⟨103, _⟩ => ⟨S_, .f32⟩
  | .hbm, ⟨104, _⟩ => ⟨S8192x1024, .f32⟩
  | .hbm, ⟨105, _⟩ => ⟨S8192x1024, .f32⟩
  | .hbm, ⟨106, _⟩ => ⟨S8192x1x1024, .f32⟩
  | .hbm, ⟨107, _⟩ => ⟨S8192x1024, .f32⟩
  | .hbm, ⟨108, _⟩ => ⟨S_, .f32⟩
  | .hbm, ⟨109, _⟩ => ⟨S8192x1024, .f32⟩
  | .hbm, ⟨110, _⟩ => ⟨S8192x1024, .f32⟩
  | .hbm, ⟨111, _⟩ => ⟨S8192x1024, .f32⟩
  | .hbm, ⟨112, _⟩ => ⟨S8192x4096, .f32⟩
  | .hbm, ⟨113, _⟩ => ⟨S1x4096, .f32⟩
  | .hbm, ⟨114, _⟩ => ⟨S8192x4096, .f32⟩
  | .hbm, ⟨115, _⟩ => ⟨S8192x4096, .f32⟩
  | .hbm, ⟨116, _⟩ => ⟨S_, .f32⟩
  | .hbm, ⟨117, _⟩ => ⟨S8192x4096, .f32⟩
  | .hbm, ⟨118, _⟩ => ⟨S8192x4096, .f32⟩
  | .hbm, ⟨119, _⟩ => ⟨S8192x1024, .f32⟩
  | .hbm, ⟨120, _⟩ => ⟨S1x1024, .f32⟩
  | .hbm, ⟨121, _⟩ => ⟨S8192x1024, .f32⟩
  | .hbm, ⟨122, _⟩ => ⟨S8192x1024, .f32⟩
  | .hbm, ⟨123, _⟩ => ⟨S1x8192x1024, .f32⟩
  | .hbm, ⟨124, _⟩ => ⟨S1x8192x1024, .f32⟩
  | .hbm, ⟨125, _⟩ => ⟨S1x8192x1024, .f32⟩
  | .hbm, ⟨126, _⟩ => ⟨S1x8192x1024, .f32⟩
  | .hbm, ⟨127, _⟩ => ⟨S4x8192x1024, .f32⟩
  | _, _ => ⟨S8192x9x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst : Ref sig .tc := ⟨.hbm, 29, rfl⟩
abbrev main_v24 : Ref sig .tc := ⟨.hbm, 30, rfl⟩
abbrev main_v25 : Ref sig .tc := ⟨.hbm, 31, rfl⟩
abbrev main_cst_0 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_1 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_call0_cst : Ref sig .tc := ⟨.hbm, 45, rfl⟩
abbrev main_call0_v0 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_2 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_3 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_4 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_call1_cst : Ref sig .tc := ⟨.hbm, 69, rfl⟩
abbrev main_call1_v0 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_5 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_6 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_7 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_call2_cst : Ref sig .tc := ⟨.hbm, 93, rfl⟩
abbrev main_call2_v0 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_cst_8 : Ref sig .tc := ⟨.hbm, 100, rfl⟩
abbrev main_v80 : Ref sig .tc := ⟨.hbm, 101, rfl⟩
abbrev main_v81 : Ref sig .tc := ⟨.hbm, 102, rfl⟩
abbrev main_cst_9 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_cst_10 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_call3_cst : Ref sig .tc := ⟨.hbm, 116, rfl⟩
abbrev main_call3_v0 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩

abbrev nD : Nat := 1
abbrev τ : Topo := Topo.v7x

variable {F : FTy → Type} [FloatOps F]

class Facts₀ : Prop where
  slices_S8192x9x1024_S8192x1x1024_0_2_0 : S8192x9x1024.Slices ![0, 2, 0] S8192x1x1024
  shapeCasts_S8192x1x1024_S8192x1024 : S8192x1x1024.ShapeCasts S8192x1024
  slices_S8192x9x1024_S8192x1x1024_0_3_0 : S8192x9x1024.Slices ![0, 3, 0] S8192x1x1024
  slices_S8192x9x1024_S8192x1x1024_0_4_0 : S8192x9x1024.Slices ![0, 4, 0] S8192x1x1024
  slices_S8192x9x1024_S8192x1x1024_0_5_0 : S8192x9x1024.Slices ![0, 5, 0] S8192x1x1024
  slices_S8192x9x1024_S8192x1x1024_0_6_0 : S8192x9x1024.Slices ![0, 6, 0] S8192x1x1024
  slices_S8192x9x1024_S8192x1x1024_0_7_0 : S8192x9x1024.Slices ![0, 7, 0] S8192x1x1024
  slices_S8192x9x1024_S8192x1x1024_0_8_0 : S8192x9x1024.Slices ![0, 8, 0] S8192x1x1024
  bcast_S_S8192x1024 : S_.BroadcastsInDim S8192x1024 (![] : Fin 0 → Fin S8192x1024.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S8192x1024_S1x8192x1024_1_2 : S8192x1024.BroadcastsInDim S1x8192x1024 (![1, 2] : Fin 2 → Fin S1x8192x1024.rank)
  concatenates_S1x8192x1024_S1x8192x1024_S1x8192x1024_S1x8192x1024_S4x8192x1024_d0 : Shape.Concatenates [S1x8192x1024, S1x8192x1024, S1x8192x1024, S1x8192x1024] S4x8192x1024 0
  dot_S8192x1024_S1024x4096_S8192x4096_1_0_0_1_n_n_wf : DotDims.WF S8192x1024 S1024x4096 S8192x4096 [1] [0] [0] [1] [] []
  dot_S8192x4096_S4096x1024_S8192x1024_1_0_0_1_n_n_wf : DotDims.WF S8192x4096 S4096x1024 S8192x1024 [1] [0] [0] [1] [] []

variable [Facts₀]

def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf
def dot_S8192x4096_S4096x1024_S8192x1024_1_0_0_1_n_n : DotDims S8192x4096 S4096x1024 S8192x1024 where
  lhsContracting := [1]
  rhsContracting := [0]
  lhsNonContracting := [0]
  rhsNonContracting := [1]
  lhsBatch := []
  rhsBatch := []
  wf := dot_S8192x4096_S4096x1024_S8192x1024_1_0_0_1_n_n_wf

class Facts : Prop extends Facts₀ where

variable [Facts]
-- ==== Proof.Spec.lean ====
/-
  The mathematics of the message-passing MLP, stated once over plain extended-real arrays.

  For a batch row `b`, a feature `k` and one of the four target nodes `t` (nodes 2, 4, 6, 8 of the nine), the
  aggregate that enters the perceptron is a fixed linear combination of the nine node embeddings
  `x n = ne[b, n, k]`. It is written here in two ways: as the sum over all nine nodes against a 4 × 9
  coefficient table (`aggSum`: zeros, `3`, `-3` and one `0.1` per row), and in the bracketed form
  `3 · ((0 + first message) + second message) + x t · 0.1` (`aggMsg`). On real entries the two agree
  (`aggSum_eq_aggMsg`): distributivity, and `x · 0 = 0`; on the extended reals distributivity fails at the
  infinities, which is why finiteness of the embeddings is assumed there.
  The perceptron itself, `mlpRow`, is one function of a row `a : Fin 1024 → EReal`:
  `d ↦ (∑ h, max ((∑ k, a k · W1[k, h]) + b1[h]) 0 · W2[h, d]) + b2[d]`.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-! ## The three constants -/

/-- The word `0x40400000` is the real number 3. -/
theorem three_eq : Ideal.ofBits .f32 0x40400000#32 = ((3 : ℝ) : EReal) := by
  simp [Ideal.ofBits, Ideal.ieee, -EReal.coe_mul]; norm_num

/-- The word `0xC0400000` is the real number -3. -/
theorem negThree_eq : Ideal.ofBits .f32 0xC0400000#32 = ((-3 : ℝ) : EReal) := by
  simp [Ideal.ofBits, Ideal.ieee, -EReal.coe_mul]; norm_num

/-- The word `0x3DCCCCCD` (the binary32 nearest to one tenth) is a real number: 13421773 / 2^27. -/
theorem tenth_eq : Ideal.ofBits .f32 0x3DCCCCCD#32 = ((13421773 / 134217728 : ℝ) : EReal) := by
  simp [Ideal.ofBits, Ideal.ieee, -EReal.coe_mul]; norm_num

/-- The word `0x7F800000` is +∞. -/
theorem inf_eq : Ideal.ofBits .f32 0x7F800000#32 = (⊤ : EReal) := by
  simp [Ideal.ofBits, Ideal.ieee]

/-! ## The aggregates -/

/-- The coefficient table, row `t` for target node `2 t + 2`: `0.1` at the node itself, `3` at the nodes whose
    embeddings enter its messages with a plus sign, `-3` at the one that enters with a minus sign. -/
def coefWord : Fin 4 → Fin 9 → BitVec 32 :=
  ![![0x00000000#32, 0x00000000#32, 0x3DCCCCCD#32, 0xC0400000#32, 0x40400000#32, 0x00000000#32, 0x00000000#32, 0x00000000#32, 0x00000000#32],
    ![0x00000000#32, 0x00000000#32, 0x40400000#32, 0x40400000#32, 0x3DCCCCCD#32, 0xC0400000#32, 0x40400000#32, 0x00000000#32, 0x00000000#32],
    ![0x00000000#32, 0x00000000#32, 0x00000000#32, 0x00000000#32, 0x40400000#32, 0x40400000#32, 0x3DCCCCCD#32, 0xC0400000#32, 0x40400000#32],
    ![0x00000000#32, 0x00000000#32, 0x00000000#32, 0x00000000#32, 0x00000000#32, 0x00000000#32, 0x40400000#32, 0x40400000#32, 0x3DCCCCCD#32]]

/-- The aggregate as a sum over the nine nodes against a coefficient array `cf`. -/
def aggSum (ne : (⟨3, ![8192, 9, 1024]⟩ : Shape).Idx → EReal) (cf : (⟨2, ![4, 9]⟩ : Shape).Idx → EReal)
    (t : Fin 4) (b : Fin 8192) (k : Fin 1024) : EReal :=
  ∑ n : Fin 9, ne (ix3 b n k) * cf (ix2 t n)

/-- The coefficient array the table denotes. -/
def coefArr : (⟨2, ![4, 9]⟩ : Shape).Idx → EReal := fun i => Ideal.ofBits .f32 (coefWord (i 0) (i 1))

/-- The aggregate in message form: three times the sum (from zero) of the node's messages, plus a tenth of the node's
    own embedding. Node 2 hears `x4 - x3`; node 4 hears `x2 + x3` and `x6 - x5`; node 6 hears `x4 + x5` and `x8 - x7`;
    node 8 hears `x6 + x7`. -/
def aggMsg (ne : (⟨3, ![8192, 9, 1024]⟩ : Shape).Idx → EReal) (t : Fin 4) (b : Fin 8192) (k : Fin 1024) : EReal :=
  let x : Fin 9 → EReal := fun n => ne (ix3 b n k)
  let three : EReal := Ideal.ofBits .f32 0x40400000#32
  let zero : EReal := Ideal.ofBits .f32 0x00000000#32
  let tenth : EReal := Ideal.ofBits .f32 0x3DCCCCCD#32
  match t with
  | 0 => three * (zero + (x 4 - x 3)) + x 2 * tenth
  | 1 => three * ((zero + (x 2 + x 3)) + (x 6 - x 5)) + x 4 * tenth
  | 2 => three * ((zero + (x 4 + x 5)) + (x 8 - x 7)) + x 6 * tenth
  | 3 => three * (zero + (x 6 + x 7)) + x 8 * tenth

/-- A sum over nine terms, written out. -/
theorem sum_univ_nine {M : Type} [AddCommMonoid M] (f : Fin 9 → M) :
    ∑ i, f i = f 0 + f 1 + f 2 + f 3 + f 4 + f 5 + f 6 + f 7 + f 8 := by
  rw [Fin.sum_univ_castSucc, Fin.sum_univ_eight]; rfl

/-- On real embeddings the sum against the table is the message form: the zero coefficients drop their terms and
    `3 · (u + v) = 3 u + 3 v`, `3 · (u - v) = 3 u + (-3) v` over the reals. -/
theorem aggSum_eq_aggMsg (ne : (⟨3, ![8192, 9, 1024]⟩ : Shape).Idx → EReal) (hfin : ∀ i, ∃ r : ℝ, ne i = (r : EReal))
    (t : Fin 4) (b : Fin 8192) (k : Fin 1024) : aggSum ne coefArr t b k = aggMsg ne t b k := by
  choose x hx using fun n : Fin 9 => hfin (ix3 b n k)
  unfold aggSum
  rw [sum_univ_nine]
  fin_cases t
  · show ne (ix3 b 0 k) * Ideal.ofBits .f32 0x00000000#32 + ne (ix3 b 1 k) * Ideal.ofBits .f32 0x00000000#32
        + ne (ix3 b 2 k) * Ideal.ofBits .f32 0x3DCCCCCD#32 + ne (ix3 b 3 k) * Ideal.ofBits .f32 0xC0400000#32
        + ne (ix3 b 4 k) * Ideal.ofBits .f32 0x40400000#32 + ne (ix3 b 5 k) * Ideal.ofBits .f32 0x00000000#32
        + ne (ix3 b 6 k) * Ideal.ofBits .f32 0x00000000#32 + ne (ix3 b 7 k) * Ideal.ofBits .f32 0x00000000#32
        + ne (ix3 b 8 k) * Ideal.ofBits .f32 0x00000000#32
      = Ideal.ofBits .f32 0x40400000#32 * (Ideal.ofBits .f32 0x00000000#32 + (ne (ix3 b 4 k) - ne (ix3 b 3 k)))
        + ne (ix3 b 2 k) * Ideal.ofBits .f32 0x3DCCCCCD#32
    simp only [hx, three_eq, negThree_eq, tenth_eq, Ideal.ofBits_zero_f32, mul_zero, add_zero, zero_add]
    have key : x 2 * (13421773 / 134217728 : ℝ) + x 3 * (-3) + x 4 * 3 = 3 * (x 4 - x 3) + x 2 * (13421773 / 134217728 : ℝ) := by ring
    exact_mod_cast key
  · show ne (ix3 b 0 k) * Ideal.ofBits .f32 0x00000000#32 + ne (ix3 b 1 k) * Ideal.ofBits .f32 0x00000000#32
        + ne (ix3 b 2 k) * Ideal.ofBits .f32 0x40400000#32 + ne (ix3 b 3 k) * Ideal.ofBits .f32 0x40400000#32
        + ne (ix3 b 4 k) * Ideal.ofBits .f32 0x3DCCCCCD#32 + ne (ix3 b 5 k) * Ideal.ofBits .f32 0xC0400000#32
        + ne (ix3 b 6 k) * Ideal.ofBits .f32 0x40400000#32 + ne (ix3 b 7 k) * Ideal.ofBits .f32 0x00000000#32
        + ne (ix3 b 8 k) * Ideal.ofBits .f32 0x00000000#32
      = Ideal.ofBits .f32 0x40400000#32 * ((Ideal.ofBits .f32 0x00000000#32 + (ne (ix3 b 2 k) + ne (ix3 b 3 k))) + (ne (ix3 b 6 k) - ne (ix3 b 5 k)))
        + ne (ix3 b 4 k) * Ideal.ofBits .f32 0x3DCCCCCD#32
    simp only [hx, three_eq, negThree_eq, tenth_eq, Ideal.ofBits_zero_f32, mul_zero, add_zero, zero_add]
    have key : x 2 * 3 + x 3 * 3 + x 4 * (13421773 / 134217728 : ℝ) + x 5 * (-3) + x 6 * 3 = 3 * ((x 2 + x 3) + (x 6 - x 5)) + x 4 * (13421773 / 134217728 : ℝ) := by ring
    exact_mod_cast key
  · show ne (ix3 b 0 k) * Ideal.ofBits .f32 0x00000000#32 + ne (ix3 b 1 k) * Ideal.ofBits .f32 0x00000000#32
        + ne (ix3 b 2 k) * Ideal.ofBits .f32 0x00000000#32 + ne (ix3 b 3 k) * Ideal.ofBits .f32 0x00000000#32
        + ne (ix3 b 4 k) * Ideal.ofBits .f32 0x40400000#32 + ne (ix3 b 5 k) * Ideal.ofBits .f32 0x40400000#32
        + ne (ix3 b 6 k) * Ideal.ofBits .f32 0x3DCCCCCD#32 + ne (ix3 b 7 k) * Ideal.ofBits .f32 0xC0400000#32
        + ne (ix3 b 8 k) * Ideal.ofBits .f32 0x40400000#32
      = Ideal.ofBits .f32 0x40400000#32 * ((Ideal.ofBits .f32 0x00000000#32 + (ne (ix3 b 4 k) + ne (ix3 b 5 k))) + (ne (ix3 b 8 k) - ne (ix3 b 7 k)))
        + ne (ix3 b 6 k) * Ideal.ofBits .f32 0x3DCCCCCD#32
    simp only [hx, three_eq, negThree_eq, tenth_eq, Ideal.ofBits_zero_f32, mul_zero, add_zero, zero_add]
    have key : x 4 * 3 + x 5 * 3 + x 6 * (13421773 / 134217728 : ℝ) + x 7 * (-3) + x 8 * 3 = 3 * ((x 4 + x 5) + (x 8 - x 7)) + x 6 * (13421773 / 134217728 : ℝ) := by ring
    exact_mod_cast key
  · show ne (ix3 b 0 k) * Ideal.ofBits .f32 0x00000000#32 + ne (ix3 b 1 k) * Ideal.ofBits .f32 0x00000000#32
        + ne (ix3 b 2 k) * Ideal.ofBits .f32 0x00000000#32 + ne (ix3 b 3 k) * Ideal.ofBits .f32 0x00000000#32
        + ne (ix3 b 4 k) * Ideal.ofBits .f32 0x00000000#32 + ne (ix3 b 5 k) * Ideal.ofBits .f32 0x00000000#32
        + ne (ix3 b 6 k) * Ideal.ofBits .f32 0x40400000#32 + ne (ix3 b 7 k) * Ideal.ofBits .f32 0x40400000#32
        + ne (ix3 b 8 k) * Ideal.ofBits .f32 0x3DCCCCCD#32
      = Ideal.ofBits .f32 0x40400000#32 * (Ideal.ofBits .f32 0x00000000#32 + (ne (ix3 b 6 k) + ne (ix3 b 7 k)))
        + ne (ix3 b 8 k) * Ideal.ofBits .f32 0x3DCCCCCD#32
    simp only [hx, three_eq, negThree_eq, tenth_eq, Ideal.ofBits_zero_f32, mul_zero, add_zero, zero_add]
    have key : x 6 * 3 + x 7 * 3 + x 8 * (13421773 / 134217728 : ℝ) = 3 * (x 6 + x 7) + x 8 * (13421773 / 134217728 : ℝ) := by ring
    exact_mod_cast key

/-! ## The perceptron and the two forms of the result -/

/-- The two-layer perceptron on one row `a`: hidden unit `h` is `max ((∑ k, a k · W1[k, h]) + b1[h]) 0`, output
    coordinate `d` is `(∑ h, hidden h · W2[h, d]) + b2[d]`. -/
def mlpRow (W1 : (⟨2, ![1024, 4096]⟩ : Shape).Idx → EReal) (b1 : (⟨1, ![4096]⟩ : Shape).Idx → EReal)
    (W2 : (⟨2, ![4096, 1024]⟩ : Shape).Idx → EReal) (b2 : (⟨1, ![1024]⟩ : Shape).Idx → EReal)
    (a : Fin 1024 → EReal) (d : Fin 1024) : EReal :=
  (∑ h : Fin 4096, max ((∑ k : Fin 1024, a k * W1 (ix2 k h)) + b1 (ix1 h)) (Ideal.ofBits .f32 0x00000000#32) * W2 (ix2 h d)) + b2 (ix1 d)

/-- The result with the aggregates taken as sums against a coefficient array. -/
def outSum (ne : (⟨3, ![8192, 9, 1024]⟩ : Shape).Idx → EReal) (cf : (⟨2, ![4, 9]⟩ : Shape).Idx → EReal)
    (W1 : (⟨2, ![1024, 4096]⟩ : Shape).Idx → EReal) (b1 : (⟨1, ![4096]⟩ : Shape).Idx → EReal)
    (W2 : (⟨2, ![4096, 1024]⟩ : Shape).Idx → EReal) (b2 : (⟨1, ![1024]⟩ : Shape).Idx → EReal) :
    (⟨3, ![4, 8192, 1024]⟩ : Shape).Idx → EReal :=
  fun i => mlpRow W1 b1 W2 b2 (aggSum ne cf (i 0) (i 1)) (i 2)

/-- The result with the aggregates in message form. -/
def outMsg (ne : (⟨3, ![8192, 9, 1024]⟩ : Shape).Idx → EReal)
    (W1 : (⟨2, ![1024, 4096]⟩ : Shape).Idx → EReal) (b1 : (⟨1, ![4096]⟩ : Shape).Idx → EReal)
    (W2 : (⟨2, ![4096, 1024]⟩ : Shape).Idx → EReal) (b2 : (⟨1, ![1024]⟩ : Shape).Idx → EReal) :
    (⟨3, ![4, 8192, 1024]⟩ : Shape).Idx → EReal :=
  fun i => mlpRow W1 b1 W2 b2 (aggMsg ne (i 0) (i 1)) (i 2)

/-- With real embeddings the two results are one array: the perceptron is applied to equal rows. -/
theorem outSum_eq_outMsg (ne : (⟨3, ![8192, 9, 1024]⟩ : Shape).Idx → EReal) (hfin : ∀ i, ∃ r : ℝ, ne i = (r : EReal))
    (W1 : (⟨2, ![1024, 4096]⟩ : Shape).Idx → EReal) (b1 : (⟨1, ![4096]⟩ : Shape).Idx → EReal)
    (W2 : (⟨2, ![4096, 1024]⟩ : Shape).Idx → EReal) (b2 : (⟨1, ![1024]⟩ : Shape).Idx → EReal) :
    outSum ne coefArr W1 b1 W2 b2 = outMsg ne W1 b1 W2 b2 := by
  funext i
  unfold outSum outMsg
  exact congrArg (fun a => mlpRow W1 b1 W2 b2 a (i 2)) (funext fun k => aggSum_eq_aggMsg ne hfin (i 0) (i 1) k)

end Cert.Spec

end
-- ==== Proof.Finite.lean ====
/-
  Finiteness, read out of the precondition: the printed predicate is a conjunction of five `all (|x| < +∞)`,
  one per argument; where it is all ones, every entry of the node embeddings (the first argument) is a real
  number. An extended real `x` with `max x (-x) < ⊤` is neither `⊤` nor `⊥`.
-/
import proofs.«123141_j59313498358354_1_alg».proof.Pre_finite_inputs
import proofs.«123141_j59313498358354_1_alg».proof.Proof.Gen.Pre_finite_inputs
import proofs.«123141_j59313498358354_1_alg».proof.Proof.Spec
import Idealize.ShloMosaic.Lib.ReduceAll

noncomputable section

namespace Cert.Finite

open Idealize.ShloMosaic Idealize.ShloMosaic.ValueIdx

instance : Subsingleton Cert.Pre_finite_inputs.S_.Idx := ⟨fun a b => funext fun d => d.elim0⟩

/-- An extended real whose absolute value compares below the word for +∞ is a real number. -/
theorem real_of_abs_lt_inf (x : EReal)
    (h : Ideal.cmp .olt (max x (-x)) (Ideal.ofBits .f32 0x7F800000#32) = 1#1) : ∃ r : ℝ, x = (r : EReal) := by
  rw [Cert.Spec.inf_eq] at h
  unfold Ideal.cmp at h
  have hlt : max x (-x) < ⊤ := by
    by_contra hn
    simp [hn] at h
  induction x using EReal.rec with
  | bot => simp at hlt
  | top => simp at hlt
  | coe r => exact ⟨r, rfl⟩

/-- Where the precondition holds, every node embedding is a real number. -/
theorem embeddings_real (a0 : FVec Ideal Cert.Pre_finite_inputs.S8192x9x1024 .f32)
    (a1 : FVec Ideal Cert.Pre_finite_inputs.S1024x4096 .f32) (a2 : FVec Ideal Cert.Pre_finite_inputs.S4096 .f32)
    (a3 : FVec Ideal Cert.Pre_finite_inputs.S4096x1024 .f32) (a4 : FVec Ideal Cert.Pre_finite_inputs.S1024 .f32)
    (h : Cert.Pre_finite_inputs.fn (F := Ideal) a0 a1 a2 a3 a4 = fun _ => 1#1) (i : Cert.Pre_finite_inputs.S8192x9x1024.Idx) :
    ∃ r : ℝ, a0 i = (r : EReal) := by
  have h0 := congrFun h ix0
  dsimp only [Cert.Pre_finite_inputs.fn, Cert.Pre_finite_inputs.fn_part1] at h0
  have h1 := (IntOp.andi_eq_one.1 h0).1
  have h2 := (IntOp.andi_eq_one.1 h1).1
  have h3 := (IntOp.andi_eq_one.1 h2).1
  have h4 := (IntOp.andi_eq_one.1 h3).1
  have h5 := Host.reduce_andi_all _ _ _ _ ix0 h4 i
  exact real_of_abs_lt_inf (a0 i) h5

end Cert.Finite

end
-- ==== Proof.KernelPayload.lean ====
/-
  The kernel body's arithmetic, read at one element. With the block's rows written `r = 64 t + b` (aggregate `t` of
  the four, batch row `b` of the block's 64), element `(r, d)` of the value the body stores is the perceptron
  `Cert.Spec.mlpRow` of the row `k ↦ ∑ n, x[b, n, k] · c[t, n]`: the lane sum over the nine nodes of the block
  times the broadcast coefficient row, the four sums stacked along the rows, two matrix products into zero
  accumulators with a bias and a maximum with zero between them. A change of float format is the identity on the
  extended reals, and a shape cast to the same shape is the identity.
-/
import proofs.«123141_j59313498358354_1_alg».proof.Proof.Gen.KernelIdeal.Skeleton
import proofs.«123141_j59313498358354_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Pay

open Cert.KernelIdeal Cert.KernelIdeal.Gen Idealize.ShloMosaic Idealize.ShloMosaic.ValueIdx

/-! ## The layout operations, read at an index -/

/-- Row `t` of the 4 × 9 coefficient block, cut out, reshaped to `[1, 9, 1]` and broadcast over a `[64, 9, 1024]`
    block: at `(b, n, k)` it is the coefficient `c[t, n]`. -/
theorem coefBroadcast_apply (c : S4x9.Idx → EReal) (o : Nat) (hs : S4x9.Slices ![o, 0] S1x9) (t : Fin 4) (ht : t.val = o)
    (b : Fin 64) (n : Fin 9) (k : Fin 1024) :
    broadcastTo S64x9x1024 (shapeCast S1x9x1 (shapeCast S9 (extractStridedSlice S1x9 ![o, 0] c hs) shapeCasts_S1x9_S9) shapeCasts_S9_S1x9x1)
      broadcasts_S1x9x1_S64x9x1024 (ix3 b n k) = c (ix2 t n) := by
  refine (broadcastTo_apply _ _ (ix3 b n k) (ix3 (0 : Fin 1) n (0 : Fin 1)) (fun a => match a with
    | ⟨0, _⟩ => by show (0 : Nat) = (if (1 : Nat) = 1 then 0 else b.val); rw [if_pos rfl]
    | ⟨1, _⟩ => by show n.val = (if (9 : Nat) = 1 then 0 else n.val); rw [if_neg (by decide)]
    | ⟨2, _⟩ => by show (0 : Nat) = (if (1 : Nat) = 1 then 0 else k.val); rw [if_pos rfl])).trans ?_
  refine (shapeCast_apply _ _ (ix3 (0 : Fin 1) n (0 : Fin 1)) (ix1 n) (by
    rw [Shape.rowMajor_val_one, Shape.rowMajor_val_three]; show n.val = (0 * 9 + n.val) * 1 + 0; omega)).trans ?_
  refine (shapeCast_apply _ _ (ix1 n) (ix2 (0 : Fin 1) n) (by
    rw [Shape.rowMajor_val_two, Shape.rowMajor_val_one]; show 0 * 9 + n.val = n.val; omega)).trans ?_
  exact extractStridedSlice_apply ![o, 0] c hs (ix2 (0 : Fin 1) n) (ix2 t n) (fun a => match a with
    | ⟨0, _⟩ => by show t.val = o + 0; omega
    | ⟨1, _⟩ => by show n.val = 0 + n.val; omega)

/-- The lane sum over the nine nodes of a `[64, 9, 1024]` block, from the neutral accumulator, at `(b, k)`. -/
theorem nodeSum_apply (src : FVec Ideal S64x9x1024 .f32) (hφ : FKind.Formats .f32)
    (hacc : (0x00000000#32 : BitVec 32) = FKind.add.neutral .f32 hφ) (b : Fin 64) (k : Fin 1024) :
    multiReduction (F := Ideal) .add [1] S64x1024 src 0x00000000#32 reduces_S64x9x1024_S64x1024 hφ hacc (ix2 b k)
      = ∑ n : Fin 9, src (ix3 b n k) := by
  refine (Ideal.multiReduction_add_single src 0x00000000#32 reduces_S64x9x1024_S64x1024 hφ hacc (ix2 b k)).trans ?_
  refine Finset.sum_congr rfl fun n _ => congrArg src ?_
  funext a
  match a with
  | ⟨0, _⟩ => rfl
  | ⟨1, _⟩ => rfl
  | ⟨2, _⟩ => rfl

/-- The four `[64, 1024]` aggregates stacked along the rows: row `64 t + b` is row `b` of aggregate `t`. -/
theorem stack_apply (a0 a1 a2 a3 : FVec Ideal S64x1024 .f32) (t : Fin 4) (b : Fin 64) (k : Fin 1024)
    (hr : t.val * 64 + b.val < 256) :
    truncf .bf16 (concatenate S256x1024 0 [⟨S64x1024, a0⟩, ⟨S64x1024, a1⟩, ⟨S64x1024, a2⟩, ⟨S64x1024, a3⟩]
        concatenates_S64x1024_S64x1024_S64x1024_S64x1024_S256x1024_d0) bitsLt_bf16_f32 (ix2 (⟨t.val * 64 + b.val, hr⟩ : Fin 256) k)
      = (match t with | 0 => a0 | 1 => a1 | 2 => a2 | 3 => a3) (ix2 b k) := by
  show concatenate S256x1024 0 [⟨S64x1024, a0⟩, ⟨S64x1024, a1⟩, ⟨S64x1024, a2⟩, ⟨S64x1024, a3⟩]
        concatenates_S64x1024_S64x1024_S64x1024_S64x1024_S256x1024_d0 (ix2 (⟨t.val * 64 + b.val, hr⟩ : Fin 256) k) = _
  fin_cases t
  · exact concatenate_apply_piece (a := 0) (xs := [⟨S64x1024, a0⟩, ⟨S64x1024, a1⟩, ⟨S64x1024, a2⟩, ⟨S64x1024, a3⟩])
      (h := concatenates_S64x1024_S64x1024_S64x1024_S64x1024_S256x1024_d0) (j := ix2 (⟨(0 : Fin 4).val * 64 + b.val, hr⟩ : Fin 256) k)
      (k := 0) (hk := by simp) (s₁ := S64x1024) (x₁ := a0) (hxk := rfl) (hr := rfl) (pre := 0) (hpre := rfl) (i := ix2 b k)
      (hi := fun a ha => match a with | ⟨0, _⟩ => absurd rfl ha | ⟨1, _⟩ => rfl) (ha := by show 0 + b.val = 0 * 64 + b.val; omega)
  · exact concatenate_apply_piece (a := 0) (xs := [⟨S64x1024, a0⟩, ⟨S64x1024, a1⟩, ⟨S64x1024, a2⟩, ⟨S64x1024, a3⟩])
      (h := concatenates_S64x1024_S64x1024_S64x1024_S64x1024_S256x1024_d0) (j := ix2 (⟨(1 : Fin 4).val * 64 + b.val, hr⟩ : Fin 256) k)
      (k := 1) (hk := by simp) (s₁ := S64x1024) (x₁ := a1) (hxk := rfl) (hr := rfl) (pre := 64) (hpre := rfl) (i := ix2 b k)
      (hi := fun a ha => match a with | ⟨0, _⟩ => absurd rfl ha | ⟨1, _⟩ => rfl) (ha := by show 64 + b.val = 1 * 64 + b.val; omega)
  · exact concatenate_apply_piece (a := 0) (xs := [⟨S64x1024, a0⟩, ⟨S64x1024, a1⟩, ⟨S64x1024, a2⟩, ⟨S64x1024, a3⟩])
      (h := concatenates_S64x1024_S64x1024_S64x1024_S64x1024_S256x1024_d0) (j := ix2 (⟨(2 : Fin 4).val * 64 + b.val, hr⟩ : Fin 256) k)
      (k := 2) (hk := by simp) (s₁ := S64x1024) (x₁ := a2) (hxk := rfl) (hr := rfl) (pre := 128) (hpre := rfl) (i := ix2 b k)
      (hi := fun a ha => match a with | ⟨0, _⟩ => absurd rfl ha | ⟨1, _⟩ => rfl) (ha := by show 128 + b.val = 2 * 64 + b.val; omega)
  · exact concatenate_apply_piece (a := 0) (xs := [⟨S64x1024, a0⟩, ⟨S64x1024, a1⟩, ⟨S64x1024, a2⟩, ⟨S64x1024, a3⟩])
      (h := concatenates_S64x1024_S64x1024_S64x1024_S64x1024_S256x1024_d0) (j := ix2 (⟨(3 : Fin 4).val * 64 + b.val, hr⟩ : Fin 256) k)
      (k := 3) (hk := by simp) (s₁ := S64x1024) (x₁ := a3) (hxk := rfl) (hr := rfl) (pre := 192) (hpre := rfl) (i := ix2 b k)
      (hi := fun a ha => match a with | ⟨0, _⟩ => absurd rfl ha | ⟨1, _⟩ => rfl) (ha := by show 192 + b.val = 3 * 64 + b.val; omega)

/-! ## The two matrix products -/

theorem lhs1_0 (i : S256x4096.Idx) (q : dot_S256x1024_S1024x4096_S256x4096_1_0_0_1_n_n.contr.Idx) :
    (dot_S256x1024_S1024x4096_S256x4096_1_0_0_1_n_n.lhsIdx i q 0).val = (i 0).val := by
  unfold DotDims.lhsIdx
  rw [dif_neg (show ¬(0 : Fin S256x1024.rank) ∈ dot_S256x1024_S1024x4096_S256x4096_1_0_0_1_n_n.lhsBatch by decide), dif_pos (show (0 : Fin S256x1024.rank) ∈ dot_S256x1024_S1024x4096_S256x4096_1_0_0_1_n_n.lhsNonContracting by decide)]
  rfl
theorem lhs1_1 (i : S256x4096.Idx) (q : dot_S256x1024_S1024x4096_S256x4096_1_0_0_1_n_n.contr.Idx) :
    (dot_S256x1024_S1024x4096_S256x4096_1_0_0_1_n_n.lhsIdx i q 1).val = (q ⟨0, by decide⟩).val :=
  dot_S256x1024_S1024x4096_S256x4096_1_0_0_1_n_n.lhsIdx_val_of_single rfl i q
theorem rhs1_0 (i : S256x4096.Idx) (q : dot_S256x1024_S1024x4096_S256x4096_1_0_0_1_n_n.contr.Idx) :
    (dot_S256x1024_S1024x4096_S256x4096_1_0_0_1_n_n.rhsIdx i q 0).val = (q ⟨0, by decide⟩).val :=
  dot_S256x1024_S1024x4096_S256x4096_1_0_0_1_n_n.rhsIdx_val_of_single rfl i q
theorem rhs1_1 (i : S256x4096.Idx) (q : dot_S256x1024_S1024x4096_S256x4096_1_0_0_1_n_n.contr.Idx) :
    (dot_S256x1024_S1024x4096_S256x4096_1_0_0_1_n_n.rhsIdx i q 1).val = (i 1).val := by
  unfold DotDims.rhsIdx
  rw [dif_neg (show ¬(1 : Fin S1024x4096.rank) ∈ dot_S256x1024_S1024x4096_S256x4096_1_0_0_1_n_n.rhsBatch by decide), dif_pos (show (1 : Fin S1024x4096.rank) ∈ dot_S256x1024_S1024x4096_S256x4096_1_0_0_1_n_n.rhsNonContracting by decide)]
  rfl

/-- The first product into a zero accumulator, at `(r, h)`: the sum over the 1024 features. -/
theorem matmul1_apply (l : FVec Ideal S256x1024 .bf16) (w : FVec Ideal S1024x4096 .bf16) (r : Fin 256) (h : Fin 4096) :
    matmul (F := Ideal) dot_S256x1024_S1024x4096_S256x4096_1_0_0_1_n_n none l w (constant (F := Ideal) S256x4096 .f32 0x00000000#32) (ix2 r h)
      = ∑ k : Fin 1024, l (ix2 r k) * w (ix2 k h) := by
  simp only [matmul]
  rw [Ideal.matmul_constant_zero_apply, ← Equiv.sum_comp (ValueIdx.contrEquiv1 dot_S256x1024_S1024x4096_S256x4096_1_0_0_1_n_n 1024 rfl rfl).symm]
  refine Finset.sum_congr rfl fun k _ => ?_
  have hk := ValueIdx.contrEquiv1_symm_val dot_S256x1024_S1024x4096_S256x4096_1_0_0_1_n_n 1024 rfl rfl k
  have el : dot_S256x1024_S1024x4096_S256x4096_1_0_0_1_n_n.lhsIdx (ix2 r h) ((ValueIdx.contrEquiv1 dot_S256x1024_S1024x4096_S256x4096_1_0_0_1_n_n 1024 rfl rfl).symm k) = ix2 r k := funext fun a => Fin.ext (by
    match a with
    | ⟨0, _⟩ => exact lhs1_0 _ _
    | ⟨1, _⟩ => exact (lhs1_1 _ _).trans hk)
  have er : dot_S256x1024_S1024x4096_S256x4096_1_0_0_1_n_n.rhsIdx (ix2 r h) ((ValueIdx.contrEquiv1 dot_S256x1024_S1024x4096_S256x4096_1_0_0_1_n_n 1024 rfl rfl).symm k) = ix2 k h := funext fun a => Fin.ext (by
    match a with
    | ⟨0, _⟩ => exact (rhs1_0 _ _).trans hk
    | ⟨1, _⟩ => exact rhs1_1 _ _)
  rw [el, er]

theorem lhs2_0 (i : S256x1024.Idx) (q : dot_S256x4096_S4096x1024_S256x1024_1_0_0_1_n_n.contr.Idx) :
    (dot_S256x4096_S4096x1024_S256x1024_1_0_0_1_n_n.lhsIdx i q 0).val = (i 0).val := by
  unfold DotDims.lhsIdx
  rw [dif_neg (show ¬(0 : Fin S256x4096.rank) ∈ dot_S256x4096_S4096x1024_S256x1024_1_0_0_1_n_n.lhsBatch by decide), dif_pos (show (0 : Fin S256x4096.rank) ∈ dot_S256x4096_S4096x1024_S256x1024_1_0_0_1_n_n.lhsNonContracting by decide)]
  rfl
theorem lhs2_1 (i : S256x1024.Idx) (q : dot_S256x4096_S4096x1024_S256x1024_1_0_0_1_n_n.contr.Idx) :
    (dot_S256x4096_S4096x1024_S256x1024_1_0_0_1_n_n.lhsIdx i q 1).val = (q ⟨0, by decide⟩).val :=
  dot_S256x4096_S4096x1024_S256x1024_1_0_0_1_n_n.lhsIdx_val_of_single rfl i q
theorem rhs2_0 (i : S256x1024.Idx) (q : dot_S256x4096_S4096x1024_S256x1024_1_0_0_1_n_n.contr.Idx) :
    (dot_S256x4096_S4096x1024_S256x1024_1_0_0_1_n_n.rhsIdx i q 0).val = (q ⟨0, by decide⟩).val :=
  dot_S256x4096_S4096x1024_S256x1024_1_0_0_1_n_n.rhsIdx_val_of_single rfl i q
theorem rhs2_1 (i : S256x1024.Idx) (q : dot_S256x4096_S4096x1024_S256x1024_1_0_0_1_n_n.contr.Idx) :
    (dot_S256x4096_S4096x1024_S256x1024_1_0_0_1_n_n.rhsIdx i q 1).val = (i 1).val := by
  unfold DotDims.rhsIdx
  rw [dif_neg (show ¬(1 : Fin S4096x1024.rank) ∈ dot_S256x4096_S4096x1024_S256x1024_1_0_0_1_n_n.rhsBatch by decide), dif_pos (show (1 : Fin S4096x1024.rank) ∈ dot_S256x4096_S4096x1024_S256x1024_1_0_0_1_n_n.rhsNonContracting by decide)]
  rfl

/-- The second product into a zero accumulator, at `(r, d)`: the sum over the 4096 hidden units. -/
theorem matmul2_apply (l : FVec Ideal S256x4096 .bf16) (w : FVec Ideal S4096x1024 .bf16) (r : Fin 256) (d : Fin 1024) :
    matmul (F := Ideal) dot_S256x4096_S4096x1024_S256x1024_1_0_0_1_n_n none l w (constant (F := Ideal) S256x1024 .f32 0x00000000#32) (ix2 r d)
      = ∑ h : Fin 4096, l (ix2 r h) * w (ix2 h d) := by
  simp only [matmul]
  rw [Ideal.matmul_constant_zero_apply, ← Equiv.sum_comp (ValueIdx.contrEquiv1 dot_S256x4096_S4096x1024_S256x1024_1_0_0_1_n_n 4096 rfl rfl).symm]
  refine Finset.sum_congr rfl fun k _ => ?_
  have hk := ValueIdx.contrEquiv1_symm_val dot_S256x4096_S4096x1024_S256x1024_1_0_0_1_n_n 4096 rfl rfl k
  have el : dot_S256x4096_S4096x1024_S256x1024_1_0_0_1_n_n.lhsIdx (ix2 r d) ((ValueIdx.contrEquiv1 dot_S256x4096_S4096x1024_S256x1024_1_0_0_1_n_n 4096 rfl rfl).symm k) = ix2 r k := funext fun a => Fin.ext (by
    match a with
    | ⟨0, _⟩ => exact lhs2_0 _ _
    | ⟨1, _⟩ => exact (lhs2_1 _ _).trans hk)
  have er : dot_S256x4096_S4096x1024_S256x1024_1_0_0_1_n_n.rhsIdx (ix2 r d) ((ValueIdx.contrEquiv1 dot_S256x4096_S4096x1024_S256x1024_1_0_0_1_n_n 4096 rfl rfl).symm k) = ix2 k d := funext fun a => Fin.ext (by
    match a with
    | ⟨0, _⟩ => exact (rhs2_0 _ _).trans hk
    | ⟨1, _⟩ => exact rhs2_1 _ _)
  rw [el, er]

/-- The hidden bias, reshaped to one row and broadcast down the 256 rows: at `(r, h)` it is `b1[h]`. -/
theorem bias1_apply (v : S4096.Idx → EReal) (r : Fin 256) (h : Fin 4096) :
    broadcastTo S256x4096 (shapeCast S1x4096 v shapeCasts_S4096_S1x4096) broadcasts_S1x4096_S256x4096 (ix2 r h) = v (ix1 h) := by
  refine (broadcastTo_apply _ _ (ix2 r h) (ix2 (0 : Fin 1) h) (fun a => match a with
    | ⟨0, _⟩ => by show (0 : Nat) = (if (1 : Nat) = 1 then 0 else r.val); rw [if_pos rfl]
    | ⟨1, _⟩ => by show h.val = (if (4096 : Nat) = 1 then 0 else h.val); rw [if_neg (by decide)])).trans ?_
  exact shapeCast_apply _ _ (ix2 (0 : Fin 1) h) (ix1 h) (by
    rw [Shape.rowMajor_val_one, Shape.rowMajor_val_two]; show h.val = 0 * 4096 + h.val; omega)

/-! ## The stored value at an element -/

/-- Aggregate `t` of the body at `(b, k)`: the sum over the nine nodes of the block times coefficient row `t`. -/
theorem agg_apply (x : FVec Ideal S64x9x1024 .f32) (c : FVec Ideal S4x9 .f32) (o : Nat) (hs : S4x9.Slices ![o, 0] S1x9)
    (t : Fin 4) (ht : t.val = o) (hφ : FKind.Formats .f32) (hacc : (0x00000000#32 : BitVec 32) = FKind.add.neutral .f32 hφ)
    (b : Fin 64) (k : Fin 1024) :
    multiReduction (F := Ideal) .add [1] S64x1024
        (mulf x (broadcastTo S64x9x1024 (shapeCast S1x9x1 (shapeCast S9 (extractStridedSlice S1x9 ![o, 0] c hs) shapeCasts_S1x9_S9) shapeCasts_S9_S1x9x1) broadcasts_S1x9x1_S64x9x1024))
        0x00000000#32 reduces_S64x9x1024_S64x1024 hφ hacc (ix2 b k)
      = ∑ n : Fin 9, x (ix3 b n k) * c (ix2 t n) := by
  refine (nodeSum_apply _ hφ hacc b k).trans ?_
  refine Finset.sum_congr rfl fun n _ => ?_
  show x (ix3 b n k) * _ = _
  exact congrArg (x (ix3 b n k) * ·) (coefBroadcast_apply c o hs t ht b n k)

/-- THE BODY'S VALUE AT AN ELEMENT: at row `64 t + b` and column `d` it is the perceptron of the row of sums
    `k ↦ ∑ n, x[b, n, k] · c[t, n]`, with the weights and the hidden bias as loaded. -/
theorem pay2_apply (x : Vec Ideal S64x9x1024 .f32) (c : Vec Ideal S4x9 .f32) (w1 : Vec Ideal S1024x4096 .bf16)
    (b1 : Vec Ideal S4096 .f32) (w2 : Vec Ideal S4096x1024 .bf16) (t : Fin 4) (b : Fin 64) (d : Fin 1024)
    (hr : t.val * 64 + b.val < 256) :
    k0_pay2 (F := Ideal) x c w1 b1 w2 (ix2 (⟨t.val * 64 + b.val, hr⟩ : Fin 256) d)
      = ∑ h : Fin 4096, max ((∑ k : Fin 1024, (∑ n : Fin 9, x (ix3 b n k) * c (ix2 t n)) * w1 (ix2 k h)) + b1 (ix1 h))
          (Ideal.ofBits .f32 0x00000000#32) * w2 (ix2 h d) := by
  unfold k0_pay2
  rw [shapeCast_self w2, shapeCast_self w1]
  refine (matmul2_apply _ _ _ d).trans ?_
  refine Finset.sum_congr rfl fun h _ => ?_
  refine congrArg (· * w2 (ix2 h d)) ?_
  show max (_ + _) (Ideal.ofBits .f32 0x00000000#32) = _
  refine congrArg₂ (fun u v => max (u + v) (Ideal.ofBits .f32 0x00000000#32)) ?_ (bias1_apply b1 _ h)
  refine (matmul1_apply _ _ _ h).trans ?_
  refine Finset.sum_congr rfl fun k _ => ?_
  refine congrArg (· * w1 (ix2 k h)) ?_
  refine (stack_apply _ _ _ _ t b k hr).trans ?_
  fin_cases t
  · exact agg_apply x c 0 _ 0 rfl _ _ b k
  · exact agg_apply x c 1 _ 1 rfl _ _ b k
  · exact agg_apply x c 2 _ 2 rfl _ _ b k
  · exact agg_apply x c 3 _ 3 rfl _ _ b k

end Cert.KernelIdeal.Pay

end
-- ==== Proof.KernelValue.lean ====
/-
  From blocks to the array. The grid has 128 points; point `p` stages rows `64 p … 64 p + 63` of the embeddings, the
  whole coefficient table, both weight matrices and both biases, and writes back the block of the result whose middle
  coordinate runs over the same 64 rows, for all four aggregates. By the body's value at an element, what point `p`
  writes back is block `p` of ONE array, `Cert.Spec.outSum` of the arrays as the region finds them; the 128 blocks
  cover the result, so after the run the result array is that array. The arrays the region finds are the arguments
  themselves (a change of float format is the identity on the extended reals), and the constant table the host writes
  is the coefficient array of the specification.
-/
import proofs.«123141_j59313498358354_1_alg».proof.Proof.KernelIdealValue
import proofs.«123141_j59313498358354_1_alg».proof.Proof.KernelPayload
import proofs.«123141_j59313498358354_1_alg».proof.Proof.Spec
import Idealize.ShloMosaic.Lib.StableHlo.Run

set_option maxRecDepth 16384

noncomputable section

open scoped BigOperators

namespace Cert.KernelIdeal.Final

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## The arrays the region finds -/

/-- The constant table the host writes is the specification's coefficient array. -/
theorem V_cst (c : Dev nD) : (V m c main_cst : S4x9.Idx → EReal) = Cert.Spec.coefArr := by
  have e : (V m c main_cst : S4x9.Idx → EReal) = fun i => Ideal.ofBits .f32 (lit0 (S4x9.rowMajor i)) := by
    dsimp only [V, hostOps0]; after_results; rfl
  rw [e]
  funext i
  obtain ⟨t, n, rfl⟩ : ∃ (t : Fin 4) (n : Fin 9), i = ix2 t n := ⟨i 0, i 1, eq_ix2 i⟩
  show Ideal.ofBits .f32 (lit0 (S4x9.rowMajor (ix2 t n))) = Ideal.ofBits .f32 (Cert.Spec.coefWord t n)
  refine congrArg (Ideal.ofBits .f32) ?_
  fin_cases t <;> fin_cases n <;> rfl

/-- The first weight matrix in its narrower format is the argument itself. -/
theorem V_v0 (c : Dev nD) : (V m c main_v0 : S1024x4096.Idx → EReal) = (m ((c : Thread nD τ).loc main_arg1) : S1024x4096.Idx → EReal) := by
  dsimp only [V, hostOps0]; after_results; rfl

/-- The second weight matrix in its narrower format is the argument itself. -/
theorem V_v1 (c : Dev nD) : (V m c main_v1 : S4096x1024.Idx → EReal) = (m ((c : Thread nD τ).loc main_arg3) : S4096x1024.Idx → EReal) := by
  dsimp only [V, hostOps0]; after_results; rfl

/-- The result as one array of the arrays the region finds. -/
def GV (c : Dev nD) : S4x8192x1024.Idx → EReal :=
  Cert.Spec.outSum (V m c main_arg0) (V m c main_cst) (V m c main_v0) (V m c main_arg2) (V m c main_v1) (V m c main_arg4)

/-- The result as one array of the arguments. -/
def G (c : Dev nD) : S4x8192x1024.Idx → EReal :=
  Cert.Spec.outSum (m ((c : Thread nD τ).loc main_arg0)) Cert.Spec.coefArr (m ((c : Thread nD τ).loc main_arg1))
    (m ((c : Thread nD τ).loc main_arg2)) (m ((c : Thread nD τ).loc main_arg3)) (m ((c : Thread nD τ).loc main_arg4))

theorem GV_eq (c : Dev nD) : GV m c = G m c := by
  unfold GV G
  rw [V_main_arg0, V_main_arg2, V_main_arg4]
  rw [show (V m c main_cst : S4x9.Idx → EReal) = Cert.Spec.coefArr from V_cst m c,
    show (V m c main_v0 : S1024x4096.Idx → EReal) = _ from V_v0 m c,
    show (V m c main_v1 : S4096x1024.Idx → EReal) = _ from V_v1 m c]

/-! ## The index maps over the grid -/

/-- The printed index maps, decided over the 128 points: the embeddings' block and the result's block move with the
    point along the batch axis; every other window sits at block zero. -/
theorem idx_facts : ∀ t : Fin cfg0.N,
    win0_6.index t (0 : Fin 3) = 0 ∧ win0_6.index t (1 : Fin 3) = t.val ∧ win0_6.index t (2 : Fin 3) = 0
    ∧ win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0 :=
  (by decide +kernel : ∀ t : Fin grid0.N, _)

/-! ## What a point writes back -/

/-- One block's value, over variables: if the embeddings' block holds rows `64 p + b` of `ne`, the block the body
    leaves holds at `(t, b, d)` the result array at `(t, 64 p + b, d)`. -/
theorem block_value (X0 : Vec Ideal S64x9x1024 .f32) (cf : Vec Ideal S4x9 .f32) (W1 : Vec Ideal S1024x4096 .bf16)
    (B1 : Vec Ideal S4096 .f32) (W2 : Vec Ideal S4096x1024 .bf16) (B2 : Vec Ideal S1024 .f32)
    (ne : S8192x9x1024.Idx → EReal) (p : Nat) (hp : p < 128)
    (h0 : ∀ (b : Fin 64) (n : Fin 9) (k : Fin 1024), X0 (ix3 b n k) = ne (ix3 (⟨p * 64 + b.val, by have := b.isLt; omega⟩ : Fin 8192) n k))
    (t : Fin 4) (b : Fin 64) (d : Fin 1024) :
    FloatOps.addf (k0_pay2 (F := Ideal) X0 cf W1 B1 W2 (ValueP.ix6_0 (ix3 t b d))) (B2 (ValueP.ix6_1 (ix3 t b d)))
      = Cert.Spec.outSum ne cf W1 B1 W2 B2 (ix3 t (⟨p * 64 + b.val, by have := b.isLt; omega⟩ : Fin 8192) d) := by
  have hr : t.val * 64 + b.val < 256 := by have := t.isLt; have := b.isLt; omega
  have e0 : ValueP.ix6_0 (ix3 t b d) = ix2 (⟨t.val * 64 + b.val, hr⟩ : Fin 256) d := by
    funext a; match a with | ⟨0, _⟩ => rfl | ⟨1, _⟩ => rfl
  have e1 : ValueP.ix6_1 (ix3 t b d) = ix1 d := by
    funext a; match a with | ⟨0, _⟩ => rfl
  rw [e0, e1, Cert.KernelIdeal.Pay.pay2_apply X0 cf W1 B1 W2 t b d hr]
  unfold Cert.Spec.outSum Cert.Spec.mlpRow Cert.Spec.aggSum
  show _ + B2 (ix1 d) = _ + B2 (ix1 d)
  refine congrArg (· + B2 (ix1 d)) ?_
  refine Finset.sum_congr rfl fun h _ => ?_
  refine congrArg (fun u => max (u + B1 (ix1 h)) (Ideal.ofBits .f32 0x00000000#32) * W2 (ix2 h d)) ?_
  refine Finset.sum_congr rfl fun k _ => ?_
  refine congrArg (· * W1 (ix2 k h)) ?_
  refine Finset.sum_congr rfl fun n _ => ?_
  rw [h0 b n k]

/-- WHAT POINT `t` WRITES BACK is block `t` of `GV`. -/
theorem flushed6_eq (c : Dev nD) (t : Fin cfg0.N) :
    (dats m 0 c).flushed 6 t = ((cfg0.win 6).blk t).view.read (Elt Ideal) (GV m c) := by
  rw [ValueP.flushed6]
  obtain ⟨i60, i61, i62, i00, i01, i02, i10, i11, i20, i21, i30, i40, i41, i50⟩ := idx_facts t
  have htN : t.val < 128 := lt_of_lt_of_eq t.isLt N_0
  funext (y : S4x64x1024.Idx)
  obtain ⟨t', b, d, rfl⟩ : ∃ (t' : Fin 4) (b : Fin 64) (d : Fin 1024), y = ix3 t' b d := ⟨y 0, y 1, y 2, eq_ix3 y⟩
  show out0_6 (F := Ideal) (iblk m c 0 t) (iblk m c 1 t) (iblk m c 2 t) (iblk m c 3 t) (iblk m c 4 t) (iblk m c 5 t) (ix3 t' b d)
      = GV m c (((cfg0.win 6).blk t).view.emb (ix3 t' b d))
  unfold out0_6
  refine (ValueP.canon6_eq _ _ _ _ _ _ (ix3 t' b d)).trans ?_
  simp only [View.ld_unit_zero (S := S64x9x1024) hz3, View.ld_unit_zero (S := S4x9) hz2, View.ld_unit_zero (S := S1024x4096) hz2,
    View.ld_unit_zero (S := S4096) hz1, View.ld_unit_zero (S := S4096x1024) hz2, View.ld_unit_zero (S := S1024) hz1]
  have e1 : (iblk m c 1 t : S4x9.Idx → EReal) = (V m c main_cst : S4x9.Idx → EReal) := by
    funext j
    show V m c main_cst (((cfg0.win 1).blk t).view.emb j) = V m c main_cst j
    refine congrArg (V m c main_cst) (funext fun a => Fin.ext ?_)
    match a with
    | ⟨0, _⟩ => show win0_1.index t (0 : Fin 2) * 4 + 1 * (j 0).val = (j 0).val; omega
    | ⟨1, _⟩ => show win0_1.index t (1 : Fin 2) * 9 + 1 * (j 1).val = (j 1).val; omega
  have e2 : (iblk m c 2 t : S1024x4096.Idx → EReal) = (V m c main_v0 : S1024x4096.Idx → EReal) := by
    funext j
    show V m c main_v0 (((cfg0.win 2).blk t).view.emb j) = V m c main_v0 j
    refine congrArg (V m c main_v0) (funext fun a => Fin.ext ?_)
    match a with
    | ⟨0, _⟩ => show win0_2.index t (0 : Fin 2) * 1024 + 1 * (j 0).val = (j 0).val; omega
    | ⟨1, _⟩ => show win0_2.index t (1 : Fin 2) * 4096 + 1 * (j 1).val = (j 1).val; omega
  have e3 : (iblk m c 3 t : S4096.Idx → EReal) = (V m c main_arg2 : S4096.Idx → EReal) := by
    funext j
    show V m c main_arg2 (((cfg0.win 3).blk t).view.emb j) = V m c main_arg2 j
    refine congrArg (V m c main_arg2) (funext fun a => Fin.ext ?_)
    match a with
    | ⟨0, _⟩ => show win0_3.index t (0 : Fin 1) * 4096 + 1 * (j 0).val = (j 0).val; omega
  have e4 : (iblk m c 4 t : S4096x1024.Idx → EReal) = (V m c main_v1 : S4096x1024.Idx → EReal) := by
    funext j
    show V m c main_v1 (((cfg0.win 4).blk t).view.emb j) = V m c main_v1 j
    refine congrArg (V m c main_v1) (funext fun a => Fin.ext ?_)
    match a with
    | ⟨0, _⟩ => show win0_4.index t (0 : Fin 2) * 4096 + 1 * (j 0).val = (j 0).val; omega
    | ⟨1, _⟩ => show win0_4.index t (1 : Fin 2) * 1024 + 1 * (j 1).val = (j 1).val; omega
  have e5 : (iblk m c 5 t : S1024.Idx → EReal) = (V m c main_arg4 : S1024.Idx → EReal) := by
    funext j
    show V m c main_arg4 (((cfg0.win 5).blk t).view.emb j) = V m c main_arg4 j
    refine congrArg (V m c main_arg4) (funext fun a => Fin.ext ?_)
    match a with
    | ⟨0, _⟩ => show win0_5.index t (0 : Fin 1) * 1024 + 1 * (j 0).val = (j 0).val; omega
  have h0 : ∀ (b : Fin 64) (n : Fin 9) (k : Fin 1024), (iblk m c 0 t : S64x9x1024.Idx → EReal) (ix3 b n k)
      = (V m c main_arg0 : S8192x9x1024.Idx → EReal) (ix3 (⟨t.val * 64 + b.val, by have := b.isLt; omega⟩ : Fin 8192) n k) := by
    intro b n k
    show V m c main_arg0 (((cfg0.win 0).blk t).view.emb (ix3 b n k)) = _
    refine congrArg (V m c main_arg0) (funext fun a => Fin.ext ?_)
    match a with
    | ⟨0, _⟩ => show win0_0.index t (0 : Fin 3) * 64 + 1 * b.val = t.val * 64 + b.val; omega
    | ⟨1, _⟩ => show win0_0.index t (1 : Fin 3) * 9 + 1 * n.val = n.val; omega
    | ⟨2, _⟩ => show win0_0.index t (2 : Fin 3) * 1024 + 1 * k.val = k.val; omega
  have hemb : ((cfg0.win 6).blk t).view.emb (ix3 t' b d) = ix3 t' (⟨t.val * 64 + b.val, by have := b.isLt; omega⟩ : Fin 8192) d := by
    funext a; apply Fin.ext
    match a with
    | ⟨0, _⟩ => show win0_6.index t (0 : Fin 3) * 4 + 1 * t'.val = t'.val; omega
    | ⟨1, _⟩ => show win0_6.index t (1 : Fin 3) * 64 + 1 * b.val = t.val * 64 + b.val; omega
    | ⟨2, _⟩ => show win0_6.index t (2 : Fin 3) * 1024 + 1 * d.val = d.val; omega
  rw [hemb]
  unfold GV
  have key := block_value (iblk m c 0 t) (iblk m c 1 t) (iblk m c 2 t) (iblk m c 3 t) (iblk m c 4 t) (iblk m c 5 t)
    (V m c main_arg0) t.val htN h0 t' b d
  refine key.trans ?_
  rw [e1, e2, e3, e4, e5]

/-! ## The cover and the run -/

/-- An index of the result is in point `t`'s block iff each coordinate is in the block's range on its axis. -/
theorem mem_blk6 (t : Fin cfg0.N) (i : S4x8192x1024.Idx) :
    i ∈ ((cfg0.win 6).blk t).view.set ↔ ∀ a : Fin 3, win0_6.index t a * S4x64x1024.size a ≤ (i a).val ∧ (i a).val < win0_6.index t a * S4x64x1024.size a + S4x64x1024.size a := by
  show i ∈ ((View.whole main_v2).slice (win0_6.rect t)).set ↔ _
  rw [View.set_slice_whole, Rect.mem_set_unit]
  exact Iff.rfl

/-- Every index of the result lies in the block of the point its batch row names. -/
theorem cover6 (i : S4x8192x1024.Idx) : ∃ t : Fin cfg0.N, (cfg0.win 6).flush t = true ∧ i ∈ ((cfg0.win 6).blk t).view.set := by
  have hi0 : (i 0).val < 4 := (i 0).isLt
  have hi1 : (i 1).val < 8192 := (i 1).isLt
  have hi2 : (i 2).val < 1024 := (i 2).isLt
  have hN : cfg0.N = 128 := N_0
  let t : Fin cfg0.N := ⟨(i 1).val / 64, by rw [hN]; omega⟩
  obtain ⟨i60, i61, i62, -⟩ := idx_facts t
  have ht : t.val = (i 1).val / 64 := rfl
  refine ⟨t, flush0_6 t, ?_⟩
  rw [mem_blk6]
  intro a
  match a with
  | ⟨0, _⟩ => show win0_6.index t (0 : Fin 3) * 4 ≤ (i 0).val ∧ (i 0).val < win0_6.index t (0 : Fin 3) * 4 + 4; omega
  | ⟨1, _⟩ => show win0_6.index t (1 : Fin 3) * 64 ≤ (i 1).val ∧ (i 1).val < win0_6.index t (1 : Fin 3) * 64 + 64; omega
  | ⟨2, _⟩ => show win0_6.index t (2 : Fin 3) * 1024 ≤ (i 2).val ∧ (i 2).val < win0_6.index t (2 : Fin 3) * 1024 + 1024; omega

/-- THE RESULT ARRAY after the run is `G` of the arguments. -/
theorem final6 (c : Dev nD) : (dats m 0 c).arrAt 6 cfg0.N = G m c :=
  (dats m 0 c).arrAt_eq_of_cover 6 (G m c) (fun t _ => (flushed6_eq m c t).trans (by rw [GV_eq])) cover6

/-- The frame run re-posted: the result array at `G` of the arguments, the arguments unchanged. -/
theorem run : θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final6 m c), (h c).2⟩) (ValueP.run_blocks m ρ)

end Cert.KernelIdeal.Final

end
-- ==== Proof.RefValue.lean ====
/-
  The reference's result, read at one element. The reference slices node `n`'s embeddings out of the
  `[8192, 9, 1024]` array (a slice of one row of the middle axis, reshaped to `[8192, 1024]`), forms for each of the
  four target nodes the aggregate `3 · ((0 + message) + message) + x · 0.1`, applies the two-layer perceptron to each
  (a `dot_general` is the plain sum over the contracted axis on the extended reals; `relu` is the maximum with zero;
  a bias is broadcast down the rows), and stacks the four results along a new leading axis. So element `(t, b, d)`
  of the result is `Cert.Spec.mlpRow` of the row `k ↦ Cert.Spec.aggMsg x t b k`.
-/
import proofs.«123141_j59313498358354_1_alg».proof.Proof.Gen.ReferenceIdeal.Read
import proofs.«123141_j59313498358354_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.Read Idealize.ShloMosaic Idealize.ShloMosaic.ValueIdx

/-! ## Layout operations at an index -/

/-- Node `n`'s slice of the embeddings, reshaped to `[8192, 1024]`: at `(b, k)` it is `x[b, n, k]`. -/
theorem nodeSlice_apply (x : S8192x9x1024.Idx → EReal) (o : Nat) (hs : S8192x9x1024.Slices ![0, o, 0] S8192x1x1024)
    (n : Fin 9) (hn : n.val = o) (b : Fin 8192) (k : Fin 1024) :
    shapeCast S8192x1024 (extractStridedSlice S8192x1x1024 ![0, o, 0] x hs) shapeCasts_S8192x1x1024_S8192x1024 (ix2 b k)
      = x (ix3 b n k) := by
  refine (shapeCast_apply _ _ (ix2 b k) (ix3 b (0 : Fin 1) k) (by
    rw [Shape.rowMajor_val_three, Shape.rowMajor_val_two]; show (b.val * 1 + 0) * 1024 + k.val = b.val * 1024 + k.val; omega)).trans ?_
  exact extractStridedSlice_apply ![0, o, 0] x hs (ix3 b (0 : Fin 1) k) (ix3 b n k) (fun a => match a with
    | ⟨0, _⟩ => by show b.val = 0 + b.val; omega
    | ⟨1, _⟩ => by show n.val = o + 0; omega
    | ⟨2, _⟩ => by show k.val = 0 + k.val; omega)

/-- The hidden bias broadcast to one row and then down the 8192 rows: at `(b, h)` it is `b1[h]`. -/
theorem bias1_apply (v : S4096.Idx → EReal) (b : Fin 8192) (h : Fin 4096) :
    broadcastInDim S8192x4096 ![0, 1] bcast_S1x4096_S8192x4096_0_1 (broadcastInDim S1x4096 ![1] bcast_S4096_S1x4096_1 v) (ix2 b h)
      = v (ix1 h) := by
  refine (broadcastInDim_apply _ bcast_S1x4096_S8192x4096_0_1 _ (ix2 b h) (ix2 (0 : Fin 1) h) (fun a => match a with
    | ⟨0, _⟩ => by show (0 : Nat) = if (1 : Nat) = 1 then 0 else b.val; rw [if_pos rfl]
    | ⟨1, _⟩ => by show h.val = if (4096 : Nat) = 1 then 0 else h.val; rw [if_neg (by decide)])).trans ?_
  exact broadcastInDim_apply _ bcast_S4096_S1x4096_1 v (ix2 (0 : Fin 1) h) (ix1 h) (fun a => match a with
    | ⟨0, _⟩ => by show h.val = if (4096 : Nat) = 1 then 0 else h.val; rw [if_neg (by decide)])

/-- The output bias broadcast to one row and then down the 8192 rows: at `(b, d)` it is `b2[d]`. -/
theorem bias2_apply (v : S1024.Idx → EReal) (b : Fin 8192) (d : Fin 1024) :
    broadcastInDim S8192x1024 ![0, 1] bcast_S1x1024_S8192x1024_0_1 (broadcastInDim S1x1024 ![1] bcast_S1024_S1x1024_1 v) (ix2 b d)
      = v (ix1 d) := by
  refine (broadcastInDim_apply _ bcast_S1x1024_S8192x1024_0_1 _ (ix2 b d) (ix2 (0 : Fin 1) d) (fun a => match a with
    | ⟨0, _⟩ => by show (0 : Nat) = if (1 : Nat) = 1 then 0 else b.val; rw [if_pos rfl]
    | ⟨1, _⟩ => by show d.val = if (1024 : Nat) = 1 then 0 else d.val; rw [if_neg (by decide)])).trans ?_
  exact broadcastInDim_apply _ bcast_S1024_S1x1024_1 v (ix2 (0 : Fin 1) d) (ix1 d) (fun a => match a with
    | ⟨0, _⟩ => by show d.val = if (1024 : Nat) = 1 then 0 else d.val; rw [if_neg (by decide)])

/-! ## The two products -/

/-- The first `dot_general` at `(b, h)`: the sum over the 1024 features. -/
theorem dot1_apply (l : FVec Ideal S8192x1024 .f32) (w : FVec Ideal S1024x4096 .f32) (b : Fin 8192) (h : Fin 4096) :
    Host.dotGeneral (F := Ideal) dot_S8192x1024_S1024x4096_S8192x4096_1_0_0_1_n_n none l w (ix2 b h)
      = ∑ k : Fin 1024, l (ix2 b k) * w (ix2 k h) := by
  simp only [Host.dotGeneral]
  rw [Ideal.dotGeneral_apply, ← Equiv.sum_comp (ValueIdx.contrEquiv1 dot_S8192x1024_S1024x4096_S8192x4096_1_0_0_1_n_n 1024 rfl rfl).symm]
  refine Finset.sum_congr rfl fun k _ => ?_
  have hk := ValueIdx.contrEquiv1_symm_val dot_S8192x1024_S1024x4096_S8192x4096_1_0_0_1_n_n 1024 rfl rfl k
  have el : dot_S8192x1024_S1024x4096_S8192x4096_1_0_0_1_n_n.lhsIdx (ix2 b h) ((ValueIdx.contrEquiv1 dot_S8192x1024_S1024x4096_S8192x4096_1_0_0_1_n_n 1024 rfl rfl).symm k) = ix2 b k := funext fun a => Fin.ext (by
    match a with
    | ⟨0, _⟩ => exact lhs_main_v33_0 _ _
    | ⟨1, _⟩ => exact (lhs_main_v33_1 _ _).trans hk)
  have er : dot_S8192x1024_S1024x4096_S8192x4096_1_0_0_1_n_n.rhsIdx (ix2 b h) ((ValueIdx.contrEquiv1 dot_S8192x1024_S1024x4096_S8192x4096_1_0_0_1_n_n 1024 rfl rfl).symm k) = ix2 k h := funext fun a => Fin.ext (by
    match a with
    | ⟨0, _⟩ => exact (rhs_main_v33_0 _ _).trans hk
    | ⟨1, _⟩ => exact rhs_main_v33_1 _ _)
  rw [el, er]

/-- The second `dot_general` at `(b, d)`: the sum over the 4096 hidden units. -/
theorem dot2_apply (l : FVec Ideal S8192x4096 .f32) (w : FVec Ideal S4096x1024 .f32) (b : Fin 8192) (d : Fin 1024) :
    Host.dotGeneral (F := Ideal) dot_S8192x4096_S4096x1024_S8192x1024_1_0_0_1_n_n none l w (ix2 b d)
      = ∑ h : Fin 4096, l (ix2 b h) * w (ix2 h d) := by
  simp only [Host.dotGeneral]
  rw [Ideal.dotGeneral_apply, ← Equiv.sum_comp (ValueIdx.contrEquiv1 dot_S8192x4096_S4096x1024_S8192x1024_1_0_0_1_n_n 4096 rfl rfl).symm]
  refine Finset.sum_congr rfl fun k _ => ?_
  have hk := ValueIdx.contrEquiv1_symm_val dot_S8192x4096_S4096x1024_S8192x1024_1_0_0_1_n_n 4096 rfl rfl k
  have el : dot_S8192x4096_S4096x1024_S8192x1024_1_0_0_1_n_n.lhsIdx (ix2 b d) ((ValueIdx.contrEquiv1 dot_S8192x4096_S4096x1024_S8192x1024_1_0_0_1_n_n 4096 rfl rfl).symm k) = ix2 b k := funext fun a => Fin.ext (by
    match a with
    | ⟨0, _⟩ => exact lhs_main_v38_0 _ _
    | ⟨1, _⟩ => exact (lhs_main_v38_1 _ _).trans hk)
  have er : dot_S8192x4096_S4096x1024_S8192x1024_1_0_0_1_n_n.rhsIdx (ix2 b d) ((ValueIdx.contrEquiv1 dot_S8192x4096_S4096x1024_S8192x1024_1_0_0_1_n_n 4096 rfl rfl).symm k) = ix2 k d := funext fun a => Fin.ext (by
    match a with
    | ⟨0, _⟩ => exact (rhs_main_v38_0 _ _).trans hk
    | ⟨1, _⟩ => exact rhs_main_v38_1 _ _)
  rw [el, er]

/-! ## The perceptron on the host -/

/-- The host's perceptron of an `[8192, 1024]` array `a`, at `(b, d)`, is `mlpRow` of row `b` of `a`. -/
theorem hostMlp_apply (a : FVec Ideal S8192x1024 .f32) (x1 : FVec Ideal S1024x4096 .f32) (x2 : FVec Ideal S4096 .f32)
    (x3 : FVec Ideal S4096x1024 .f32) (x4 : FVec Ideal S1024 .f32) (b : Fin 8192) (d : Fin 1024) :
    addf (Host.dotGeneral (F := Ideal) dot_S8192x4096_S4096x1024_S8192x1024_1_0_0_1_n_n none
        (maximumf (addf (Host.dotGeneral (F := Ideal) dot_S8192x1024_S1024x4096_S8192x4096_1_0_0_1_n_n none a x1)
            (broadcastInDim S8192x4096 ![0, 1] bcast_S1x4096_S8192x4096_0_1 (broadcastInDim S1x4096 ![1] bcast_S4096_S1x4096_1 x2)))
          (broadcastInDim S8192x4096 ![] bcast_S_S8192x4096 (constant (F := Ideal) S_ .f32 0x00000000#32))) x3)
      (broadcastInDim S8192x1024 ![0, 1] bcast_S1x1024_S8192x1024_0_1 (broadcastInDim S1x1024 ![1] bcast_S1024_S1x1024_1 x4)) (ix2 b d)
      = Cert.Spec.mlpRow x1 x2 x3 x4 (fun k => a (ix2 b k)) d := by
  unfold Cert.Spec.mlpRow
  show _ + _ = _ + _
  refine congrArg₂ (· + ·) ?_ (bias2_apply x4 b d)
  refine (dot2_apply _ x3 b d).trans ?_
  refine Finset.sum_congr rfl fun h _ => ?_
  refine congrArg (· * x3 (ix2 h d)) ?_
  show max (_ + _) (Ideal.ofBits .f32 0x00000000#32) = _
  exact congrArg₂ (fun u v => max (u + v) (Ideal.ofBits .f32 0x00000000#32)) (dot1_apply a x1 b h) (bias1_apply x2 b h)

/-! ## The four aggregates -/

/-- Node 2's aggregate: `3 · (0 + (x4 - x3)) + x2 · 0.1`. -/
theorem agg0_apply (x0 : FVec Ideal S8192x9x1024 .f32) (b : Fin 8192) (k : Fin 1024) :
    val_main_v32 (F := Ideal) x0 (ix2 b k) = Cert.Spec.aggMsg x0 0 b k := by
  have e5 : val_main_v5 (F := Ideal) x0 (ix2 b k) = x0 (ix3 b 4 k) := nodeSlice_apply x0 4 _ 4 rfl b k
  have e3 : val_main_v3 (F := Ideal) x0 (ix2 b k) = x0 (ix3 b 3 k) := nodeSlice_apply x0 3 _ 3 rfl b k
  have e29 : val_main_v29 (F := Ideal) x0 (ix2 b k) = x0 (ix3 b 2 k) := nodeSlice_apply x0 2 _ 2 rfl b k
  show Ideal.ofBits .f32 0x40400000#32 * (Ideal.ofBits .f32 0x00000000#32 + (val_main_v5 (F := Ideal) x0 (ix2 b k) - val_main_v3 (F := Ideal) x0 (ix2 b k)))
      + val_main_v29 (F := Ideal) x0 (ix2 b k) * Ideal.ofBits .f32 0x3DCCCCCD#32 = _
  rw [e5, e3, e29]
  rfl

/-- Node 4's aggregate: `3 · ((0 + (x2 + x3)) + (x6 - x5)) + x4 · 0.1`. -/
theorem agg1_apply (x0 : FVec Ideal S8192x9x1024 .f32) (b : Fin 8192) (k : Fin 1024) :
    val_main_v51 (F := Ideal) x0 (ix2 b k) = Cert.Spec.aggMsg x0 1 b k := by
  have e1 : val_main_v1 (F := Ideal) x0 (ix2 b k) = x0 (ix3 b 2 k) := nodeSlice_apply x0 2 _ 2 rfl b k
  have e3 : val_main_v3 (F := Ideal) x0 (ix2 b k) = x0 (ix3 b 3 k) := nodeSlice_apply x0 3 _ 3 rfl b k
  have e13 : val_main_v13 (F := Ideal) x0 (ix2 b k) = x0 (ix3 b 6 k) := nodeSlice_apply x0 6 _ 6 rfl b k
  have e11 : val_main_v11 (F := Ideal) x0 (ix2 b k) = x0 (ix3 b 5 k) := nodeSlice_apply x0 5 _ 5 rfl b k
  have e48 : val_main_v48 (F := Ideal) x0 (ix2 b k) = x0 (ix3 b 4 k) := nodeSlice_apply x0 4 _ 4 rfl b k
  show Ideal.ofBits .f32 0x40400000#32 * ((Ideal.ofBits .f32 0x00000000#32 + (val_main_v1 (F := Ideal) x0 (ix2 b k) + val_main_v3 (F := Ideal) x0 (ix2 b k)))
        + (val_main_v13 (F := Ideal) x0 (ix2 b k) - val_main_v11 (F := Ideal) x0 (ix2 b k)))
      + val_main_v48 (F := Ideal) x0 (ix2 b k) * Ideal.ofBits .f32 0x3DCCCCCD#32 = _
  rw [e1, e3, e13, e11, e48]
  rfl

/-- Node 6's aggregate: `3 · ((0 + (x4 + x5)) + (x8 - x7)) + x6 · 0.1`. -/
theorem agg2_apply (x0 : FVec Ideal S8192x9x1024 .f32) (b : Fin 8192) (k : Fin 1024) :
    val_main_v70 (F := Ideal) x0 (ix2 b k) = Cert.Spec.aggMsg x0 2 b k := by
  have e9 : val_main_v9 (F := Ideal) x0 (ix2 b k) = x0 (ix3 b 4 k) := nodeSlice_apply x0 4 _ 4 rfl b k
  have e11 : val_main_v11 (F := Ideal) x0 (ix2 b k) = x0 (ix3 b 5 k) := nodeSlice_apply x0 5 _ 5 rfl b k
  have e21 : val_main_v21 (F := Ideal) x0 (ix2 b k) = x0 (ix3 b 8 k) := nodeSlice_apply x0 8 _ 8 rfl b k
  have e19 : val_main_v19 (F := Ideal) x0 (ix2 b k) = x0 (ix3 b 7 k) := nodeSlice_apply x0 7 _ 7 rfl b k
  have e67 : val_main_v67 (F := Ideal) x0 (ix2 b k) = x0 (ix3 b 6 k) := nodeSlice_apply x0 6 _ 6 rfl b k
  show Ideal.ofBits .f32 0x40400000#32 * ((Ideal.ofBits .f32 0x00000000#32 + (val_main_v9 (F := Ideal) x0 (ix2 b k) + val_main_v11 (F := Ideal) x0 (ix2 b k)))
        + (val_main_v21 (F := Ideal) x0 (ix2 b k) - val_main_v19 (F := Ideal) x0 (ix2 b k)))
      + val_main_v67 (F := Ideal) x0 (ix2 b k) * Ideal.ofBits .f32 0x3DCCCCCD#32 = _
  rw [e9, e11, e21, e19, e67]
  rfl

/-- Node 8's aggregate: `3 · (0 + (x6 + x7)) + x8 · 0.1`. -/
theorem agg3_apply (x0 : FVec Ideal S8192x9x1024 .f32) (b : Fin 8192) (k : Fin 1024) :
    val_main_v88 (F := Ideal) x0 (ix2 b k) = Cert.Spec.aggMsg x0 3 b k := by
  have e17 : val_main_v17 (F := Ideal) x0 (ix2 b k) = x0 (ix3 b 6 k) := nodeSlice_apply x0 6 _ 6 rfl b k
  have e19 : val_main_v19 (F := Ideal) x0 (ix2 b k) = x0 (ix3 b 7 k) := nodeSlice_apply x0 7 _ 7 rfl b k
  have e85 : val_main_v85 (F := Ideal) x0 (ix2 b k) = x0 (ix3 b 8 k) := nodeSlice_apply x0 8 _ 8 rfl b k
  show Ideal.ofBits .f32 0x40400000#32 * (Ideal.ofBits .f32 0x00000000#32 + (val_main_v17 (F := Ideal) x0 (ix2 b k) + val_main_v19 (F := Ideal) x0 (ix2 b k)))
      + val_main_v85 (F := Ideal) x0 (ix2 b k) * Ideal.ofBits .f32 0x3DCCCCCD#32 = _
  rw [e17, e19, e85]
  rfl

/-! ## The four results and their stack -/

theorem term0_apply (x0 : FVec Ideal S8192x9x1024 .f32) (x1 : FVec Ideal S1024x4096 .f32) (x2 : FVec Ideal S4096 .f32)
    (x3 : FVec Ideal S4096x1024 .f32) (x4 : FVec Ideal S1024 .f32) (b : Fin 8192) (d : Fin 1024) :
    val_main_v41 (F := Ideal) x0 x1 x2 x3 x4 (ix2 b d) = Cert.Spec.mlpRow x1 x2 x3 x4 (Cert.Spec.aggMsg x0 0 b) d :=
  (hostMlp_apply (val_main_v32 (F := Ideal) x0) x1 x2 x3 x4 b d).trans
    (congrArg (fun a => Cert.Spec.mlpRow x1 x2 x3 x4 a d) (funext fun k => agg0_apply x0 b k))

theorem term1_apply (x0 : FVec Ideal S8192x9x1024 .f32) (x1 : FVec Ideal S1024x4096 .f32) (x2 : FVec Ideal S4096 .f32)
    (x3 : FVec Ideal S4096x1024 .f32) (x4 : FVec Ideal S1024 .f32) (b : Fin 8192) (d : Fin 1024) :
    val_main_v60 (F := Ideal) x0 x1 x2 x3 x4 (ix2 b d) = Cert.Spec.mlpRow x1 x2 x3 x4 (Cert.Spec.aggMsg x0 1 b) d :=
  (hostMlp_apply (val_main_v51 (F := Ideal) x0) x1 x2 x3 x4 b d).trans
    (congrArg (fun a => Cert.Spec.mlpRow x1 x2 x3 x4 a d) (funext fun k => agg1_apply x0 b k))

theorem term2_apply (x0 : FVec Ideal S8192x9x1024 .f32) (x1 : FVec Ideal S1024x4096 .f32) (x2 : FVec Ideal S4096 .f32)
    (x3 : FVec Ideal S4096x1024 .f32) (x4 : FVec Ideal S1024 .f32) (b : Fin 8192) (d : Fin 1024) :
    val_main_v79 (F := Ideal) x0 x1 x2 x3 x4 (ix2 b d) = Cert.Spec.mlpRow x1 x2 x3 x4 (Cert.Spec.aggMsg x0 2 b) d :=
  (hostMlp_apply (val_main_v70 (F := Ideal) x0) x1 x2 x3 x4 b d).trans
    (congrArg (fun a => Cert.Spec.mlpRow x1 x2 x3 x4 a d) (funext fun k => agg2_apply x0 b k))

theorem term3_apply (x0 : FVec Ideal S8192x9x1024 .f32) (x1 : FVec Ideal S1024x4096 .f32) (x2 : FVec Ideal S4096 .f32)
    (x3 : FVec Ideal S4096x1024 .f32) (x4 : FVec Ideal S1024 .f32) (b : Fin 8192) (d : Fin 1024) :
    val_main_v97 (F := Ideal) x0 x1 x2 x3 x4 (ix2 b d) = Cert.Spec.mlpRow x1 x2 x3 x4 (Cert.Spec.aggMsg x0 3 b) d :=
  (hostMlp_apply (val_main_v88 (F := Ideal) x0) x1 x2 x3 x4 b d).trans
    (congrArg (fun a => Cert.Spec.mlpRow x1 x2 x3 x4 a d) (funext fun k => agg3_apply x0 b k))

/-- A result given a new leading axis of extent one: at `(0, b, d)` it is the result at `(b, d)`. -/
theorem lead_apply (y : S8192x1024.Idx → EReal) (b : Fin 8192) (d : Fin 1024) :
    broadcastInDim S1x8192x1024 ![1, 2] bcast_S8192x1024_S1x8192x1024_1_2 y (ix3 (0 : Fin 1) b d) = y (ix2 b d) :=
  broadcastInDim_apply _ bcast_S8192x1024_S1x8192x1024_1_2 y (ix3 (0 : Fin 1) b d) (ix2 b d) (fun a => match a with
    | ⟨0, _⟩ => by show b.val = if (8192 : Nat) = 1 then 0 else b.val; rw [if_neg (by decide)]
    | ⟨1, _⟩ => by show d.val = if (1024 : Nat) = 1 then 0 else d.val; rw [if_neg (by decide)])

/-- THE REFERENCE'S RESULT is the perceptron of the message-form aggregates, element by element. -/
theorem result_eq (x0 : FVec Ideal S8192x9x1024 .f32) (x1 : FVec Ideal S1024x4096 .f32) (x2 : FVec Ideal S4096 .f32)
    (x3 : FVec Ideal S4096x1024 .f32) (x4 : FVec Ideal S1024 .f32) :
    val_main_v102 (F := Ideal) x0 x1 x2 x3 x4 = Cert.Spec.outMsg x0 x1 x2 x3 x4 := by
  funext i
  obtain ⟨t, b, d, rfl⟩ : ∃ (t : Fin 4) (b : Fin 8192) (d : Fin 1024), i = ix3 t b d := ⟨i 0, i 1, i 2, eq_ix3 i⟩
  unfold val_main_v102 Cert.Spec.outMsg
  fin_cases t
  · refine (concatenate_apply_piece (a := 0)
      (xs := [⟨S1x8192x1024, val_main_v98 (F := Ideal) x0 x1 x2 x3 x4⟩, ⟨S1x8192x1024, val_main_v99 (F := Ideal) x0 x1 x2 x3 x4⟩, ⟨S1x8192x1024, val_main_v100 (F := Ideal) x0 x1 x2 x3 x4⟩, ⟨S1x8192x1024, val_main_v101 (F := Ideal) x0 x1 x2 x3 x4⟩])
      (h := concatenates_S1x8192x1024_S1x8192x1024_S1x8192x1024_S1x8192x1024_S4x8192x1024_d0) (j := ix3 (0 : Fin 4) b d)
      (k := 0) (hk := by simp) (s₁ := S1x8192x1024) (x₁ := val_main_v98 (F := Ideal) x0 x1 x2 x3 x4) (hxk := rfl) (hr := rfl) (pre := 0) (hpre := rfl)
      (i := ix3 (0 : Fin 1) b d) (hi := fun a ha => match a with | ⟨0, _⟩ => absurd rfl ha | ⟨1, _⟩ => rfl | ⟨2, _⟩ => rfl)
      (ha := by show 0 + 0 = 0; rfl)).trans ?_
    exact (lead_apply _ b d).trans (term0_apply x0 x1 x2 x3 x4 b d)
  · refine (concatenate_apply_piece (a := 0)
      (xs := [⟨S1x8192x1024, val_main_v98 (F := Ideal) x0 x1 x2 x3 x4⟩, ⟨S1x8192x1024, val_main_v99 (F := Ideal) x0 x1 x2 x3 x4⟩, ⟨S1x8192x1024, val_main_v100 (F := Ideal) x0 x1 x2 x3 x4⟩, ⟨S1x8192x1024, val_main_v101 (F := Ideal) x0 x1 x2 x3 x4⟩])
      (h := concatenates_S1x8192x1024_S1x8192x1024_S1x8192x1024_S1x8192x1024_S4x8192x1024_d0) (j := ix3 (1 : Fin 4) b d)
      (k := 1) (hk := by simp) (s₁ := S1x8192x1024) (x₁ := val_main_v99 (F := Ideal) x0 x1 x2 x3 x4) (hxk := rfl) (hr := rfl) (pre := 1) (hpre := rfl)
      (i := ix3 (0 : Fin 1) b d) (hi := fun a ha => match a with | ⟨0, _⟩ => absurd rfl ha | ⟨1, _⟩ => rfl | ⟨2, _⟩ => rfl)
      (ha := by show 1 + 0 = 1; rfl)).trans ?_
    exact (lead_apply _ b d).trans (term1_apply x0 x1 x2 x3 x4 b d)
  · refine (concatenate_apply_piece (a := 0)
      (xs := [⟨S1x8192x1024, val_main_v98 (F := Ideal) x0 x1 x2 x3 x4⟩, ⟨S1x8192x1024, val_main_v99 (F := Ideal) x0 x1 x2 x3 x4⟩, ⟨S1x8192x1024, val_main_v100 (F := Ideal) x0 x1 x2 x3 x4⟩, ⟨S1x8192x1024, val_main_v101 (F := Ideal) x0 x1 x2 x3 x4⟩])
      (h := concatenates_S1x8192x1024_S1x8192x1024_S1x8192x1024_S1x8192x1024_S4x8192x1024_d0) (j := ix3 (2 : Fin 4) b d)
      (k := 2) (hk := by simp) (s₁ := S1x8192x1024) (x₁ := val_main_v100 (F := Ideal) x0 x1 x2 x3 x4) (hxk := rfl) (hr := rfl) (pre := 2) (hpre := rfl)
      (i := ix3 (0 : Fin 1) b d) (hi := fun a ha => match a with | ⟨0, _⟩ => absurd rfl ha | ⟨1, _⟩ => rfl | ⟨2, _⟩ => rfl)
      (ha := by show 2 + 0 = 2; rfl)).trans ?_
    exact (lead_apply _ b d).trans (term2_apply x0 x1 x2 x3 x4 b d)
  · refine (concatenate_apply_piece (a := 0)
      (xs := [⟨S1x8192x1024, val_main_v98 (F := Ideal) x0 x1 x2 x3 x4⟩, ⟨S1x8192x1024, val_main_v99 (F := Ideal) x0 x1 x2 x3 x4⟩, ⟨S1x8192x1024, val_main_v100 (F := Ideal) x0 x1 x2 x3 x4⟩, ⟨S1x8192x1024, val_main_v101 (F := Ideal) x0 x1 x2 x3 x4⟩])
      (h := concatenates_S1x8192x1024_S1x8192x1024_S1x8192x1024_S1x8192x1024_S4x8192x1024_d0) (j := ix3 (3 : Fin 4) b d)
      (k := 3) (hk := by simp) (s₁ := S1x8192x1024) (x₁ := val_main_v101 (F := Ideal) x0 x1 x2 x3 x4) (hxk := rfl) (hr := rfl) (pre := 3) (hpre := rfl)
      (i := ix3 (0 : Fin 1) b d) (hi := fun a ha => match a with | ⟨0, _⟩ => absurd rfl ha | ⟨1, _⟩ => rfl | ⟨2, _⟩ => rfl)
      (ha := by show 3 + 0 = 3; rfl)).trans ?_
    exact (lead_apply _ b d).trans (term3_apply x0 x1 x2 x3 x4 b d)

end Cert.ReferenceIdeal.RefValue

end
-- ==== Proof.lean ====
/- The proof of `Cert.Claim`.

   Both programs compute, for each of four target nodes `t`, batch row `b` and output coordinate `d`, the two-layer
   perceptron `(∑ h, max ((∑ k, a k · W1[k, h]) + b1[h]) 0 · W2[h, d]) + b2[d]` of an aggregate row `a` of the nine node
   embeddings. The kernel forms `a k` as the sum over all nine nodes against a constant 4 × 9 coefficient table and
   works block by block (64 batch rows at a time, the four aggregates stacked); the reference forms it as
   `3 · ((0 + message) + message) + x · 0.1` from slices and works on whole arrays. On the extended reals the
   perceptron is literally the same function of the row on both sides (a matrix product into a zero accumulator and
   the host's `dot_general` are the same sum, a change of float format is the identity), so the two results agree as
   soon as the two rows do; the rows agree by distributivity over the reals, which is where the precondition — every
   embedding finite — is used. The kernel's side: Proof/KernelPayload.lean (the body at an element),
   Proof/KernelValue.lean (blocks to the array). The reference's side: Proof/RefValue.lean. The shared functions and
   the law between the two aggregates: Proof/Spec.lean. Finiteness out of the precondition: Proof/Finite.lean.
   The three frames are the generated ones (the reference's is its generated run with the result dropped), and the
   idealization rewrote nothing, so `preserves` is `True`. -/
import proofs.«123141_j59313498358354_1_alg».proof.Defs
import proofs.«123141_j59313498358354_1_alg».proof.Proof.Gen.Kernel
import proofs.«123141_j59313498358354_1_alg».proof.Proof.Gen.Kernel.Skeleton
import proofs.«123141_j59313498358354_1_alg».proof.Proof.Gen.Kernel.Launch
import proofs.«123141_j59313498358354_1_alg».proof.Proof.Gen.Kernel.Points
import proofs.«123141_j59313498358354_1_alg».proof.Proof.Gen.Kernel.Frame
import proofs.«123141_j59313498358354_1_alg».proof.Proof.Gen.KernelIdeal
import proofs.«123141_j59313498358354_1_alg».proof.Proof.Gen.KernelIdeal.Skeleton
import proofs.«123141_j59313498358354_1_alg».proof.Proof.Gen.KernelIdeal.Launch
import proofs.«123141_j59313498358354_1_alg».proof.Proof.Gen.KernelIdeal.Points
import proofs.«123141_j59313498358354_1_alg».proof.Proof.Gen.KernelIdeal.Frame
import proofs.«123141_j59313498358354_1_alg».proof.Proof.Gen.ReferenceIdeal
import proofs.«123141_j59313498358354_1_alg».proof.Proof.Gen.Pre_finite_inputs
import proofs.«123141_j59313498358354_1_alg».proof.Proof.KernelIdealValue
import proofs.«123141_j59313498358354_1_alg».proof.Proof.Gen.ReferenceIdeal.Run
import proofs.«123141_j59313498358354_1_alg».proof.Proof.Gen.ReferenceIdeal.Read
import proofs.«123141_j59313498358354_1_alg».proof.Proof.Spec
import proofs.«123141_j59313498358354_1_alg».proof.Proof.Finite
import proofs.«123141_j59313498358354_1_alg».proof.Proof.KernelPayload
import proofs.«123141_j59313498358354_1_alg».proof.Proof.KernelValue
import proofs.«123141_j59313498358354_1_alg».proof.Proof.RefValue
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the result at the perceptron of the aggregates: the kernel's as sums against the coefficient
    table, the reference's in message form; with finite embeddings these are one array. -/
theorem algebraic : Cert.algebraic_KernelIdeal_ReferenceIdeal := by
  intro m ρ m' ρ' hpre hagree
  refine ⟨fun c => Cert.KernelIdeal.Final.G m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v102_eq, Cert.ReferenceIdeal.RefValue.result_eq,
    (hagree c).1, (hagree c).2.1, (hagree c).2.2.1, (hagree c).2.2.2.1, (hagree c).2.2.2.2]
  exact (Cert.Spec.outSum_eq_outMsg _ (fun i => Cert.Finite.embeddings_real _ _ _ _ _ (hpre c) i) _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
